-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S2x800000 : Shape := ⟨2, ![2, 800000]⟩
abbrev S192x192 : Shape := ⟨2, ![192, 192]⟩
abbrev S192 : Shape := ⟨1, ![192]⟩
abbrev S192x64 : Shape := ⟨2, ![192, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S192 .f32) (main_arg6 : FVec F S192 .f32) (main_arg7 : FVec F S192x64 .f32) (main_arg8 : FVec F S64 .f32) (main_v13 : IVec S_ 1) (main_v16 : IVec S192 1) : IVec S_ 1 :=
  let main_c_5 : IVec S_ 1 := constantI S_ 1 1#1
  let main_v17 : IVec S_ 1 := (fun x v => Host.reduce IntOp.andi x v reducesTo_S192_S_d0 h_S_) main_v16 main_c_5
  let main_v18 : IVec S_ 1 := andi main_v13 main_v17
  let main_v19 : FVec F S192 .f32 := Host.absf main_arg5
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192 .f32 := Host.absf main_arg6
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S192x64 .f32 := Host.absf main_arg7
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : FVec F S800000x64 .f32) (main_arg2 : IVec S2x800000 32) (main_arg3 : FVec F S192x192 .f32) (main_arg4 : FVec F S192 .f32) (main_arg5 : FVec F S192 .f32) (main_arg6 : FVec F S192 .f32) (main_arg7 : FVec F S192x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x192 .f32 := Host.absf main_arg3
  let main_cst_2 : FVec F S_ .f32 := constant S_ .f32 0x7F800000#32
  let main_v10 : FVec F S192x192 .f32 := broadcastInDim S192x192 ![] bcast_S_S192x192 main_cst_2
  let main_v11 : IVec S192x192 1 := cmpf .olt main_v9 main_v10
  let main_c_3 : IVec S_ 1 := constantI S_ 1 1#1
  let main_v12 : IVec S_ 1 := (fun x v => Host.reduce IntOp.andi x v reducesTo_S192x192_S_d0_1 h_S_) main_v11 main_c_3
  let main_v13 : IVec S_ 1 := andi main_v8 main_v12
  let main_v14 : FVec F S192 .f32 := Host.absf main_arg4
  let main_cst_4 : FVec F S_ .f32 := constant S_ .f32 0x7F800000#32
  let main_v15 : FVec F S192 .f32 := broadcastInDim S192 ![] bcast_S_S192 main_cst_4
  let main_v16 : IVec S192 1 := cmpf .olt main_v14 main_v15
  fn_part1 (F := F) main_arg5 main_arg6 main_arg7 main_arg8 main_v13 main_v16
-- ==== Kernel.lean ====
abbrev S50000x64 : Shape := ⟨2, ![50000, 64]⟩
abbrev S800000x64 : Shape := ⟨2, ![800000, 64]⟩
abbrev S2x800000 : Shape := ⟨2, ![2, 800000]⟩
abbrev S192x192 : Shape := ⟨2, ![192, 192]⟩
abbrev S192 : Shape := ⟨1, ![192]⟩
abbrev S192x64 : Shape := ⟨2, ![192, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x192 : Shape := ⟨2, ![1, 192]⟩
abbrev S1x64 : Shape := ⟨2, ![1, 64]⟩
abbrev S4096x64 : Shape := ⟨2, ![4096, 64]⟩
abbrev S4096x192 : Shape := ⟨2, ![4096, 192]⟩
abbrev S4096 : Shape := ⟨1, ![4096]⟩
abbrev S4096x1 : Shape := ⟨2, ![4096, 1]⟩

abbrev nBuf : Space → Nat
  | .hbm => 36
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S2x800000, .i32⟩
  | .hbm, ⟨3, _⟩ => ⟨S192x192, .f32⟩
  | .hbm, ⟨4, _⟩ => ⟨S192, .f32⟩
  | .hbm, ⟨5, _⟩ => ⟨S192, .f32⟩
  | .hbm, ⟨6, _⟩ => ⟨S192, .f32⟩
  | .hbm, ⟨7, _⟩ => ⟨S192x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S1x192, .f32⟩
  | .hbm, ⟨32, _⟩ => ⟨S1x192, .f32⟩
  | .hbm, ⟨33, _⟩ => ⟨S1x192, .f32⟩
  | .hbm, ⟨34, _⟩ => ⟨S1x64, .f32⟩
  | .hbm, ⟨35, _⟩ => ⟨S800000x64, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S192x192, .f32⟩
  | .local _ .vmem, ⟨7, _⟩ => ⟨S1x192, .f32⟩
  | .local _ .vmem, ⟨8, _⟩ => ⟨S1x192, .f32⟩
  | .local _ .vmem, ⟨9, _⟩ => ⟨S1x192, .f32⟩
  | .local _ .vmem, ⟨10, _⟩ => ⟨S192x64, .f32⟩
  | .local _ .vmem, ⟨11, _⟩ => ⟨S1x64, .f32⟩
  | .local _ .vmem, ⟨12, _⟩ => ⟨S4096x64, .f32⟩
  | .local _ .vmem, ⟨13, _⟩ => ⟨S4096x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S192_S1x192 : S192.ShapeCasts S1x192
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  concatenates_S4096x64_S4096x64_S4096x64_S4096x192_d1 : Shape.Concatenates [S4096x64, S4096x64, S4096x64] S4096x192 1
  inb_S192x192_S192x192_0_0 : ∀ a, (![0, 0] : Fin 2 → Nat) a + S192x192.size a ≤ S192x192.size a
  h_S192x192 : 0 < S192x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S4096x192 : S1x192.Broadcasts S4096x192
  reduces_S4096x192_S4096 : S4096x192.Reduces [1] S4096
  shapeCasts_S4096_S4096x1 : S4096.ShapeCasts S4096x1
  broadcasts_S4096x1_S4096x192 : S4096x1.Broadcasts S4096x192
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  gather_S50000x64_S800000x1_S800000x64_1_0_n_n_0_1_164_wf : GatherDims.WF S50000x64 S800000x1 S800000x64 [1] [0] [] [0] [] 1 ![1, 64]
  dot_S4096x192_S192x192_S4096x192_1_0_0_1_n_n_wf : DotDims.WF S4096x192 S192x192 S4096x192 [1] [0] [0] [1] [] []
  dot_S4096x192_S192x64_S4096x64_1_0_0_1_n_n_wf : DotDims.WF S4096x192 S192x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x64.size a < S800000x64.size a
  hwx0_0 : ∀ i : grid0.Coords, EltTy.bits .f32 = 32 ∨ (Rect.unit (s := S800000x64) (fun a => cc0_transform_0 i a * S4096x64.size a) (fun a => (Pipeline.Clip.of (cc0_transform_0 i a) (S4096x64.size a) (S800000x64.size a)).extent (S4096x64.size a)) fun a => Pipeline.Clip.inb (Pipeline.Clip.ok_of (hstart0_0 i a))).WholeWords (EltTy.packing .f32)
  hwxs0_0 : ∀ i : grid0.Coords, EltTy.bits .f32 = 32 ∨ (Rect.unit (s := S4096x64) (fun _ => 0) (fun a => (Pipeline.Clip.of (cc0_transform_0 i a) (S4096x64.size a) (S800000x64.size a)).extent (S4096x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x64.size a < S800000x64.size a
  hwx0_1 : ∀ i : grid0.Coords, EltTy.bits .f32 = 32 ∨ (Rect.unit (s := S800000x64) (fun a => cc0_transform_1 i a * S4096x64.size a) (fun a => (Pipeline.Clip.of (cc0_transform_1 i a) (S4096x64.size a) (S800000x64.size a)).extent (S4096x64.size a)) fun a => Pipeline.Clip.inb (Pipeline.Clip.ok_of (hstart0_1 i a))).WholeWords (EltTy.packing .f32)
  hwxs0_1 : ∀ i : grid0.Coords, EltTy.bits .f32 = 32 ∨ (Rect.unit (s := S4096x64) (fun _ => 0) (fun a => (Pipeline.Clip.of (cc0_transform_1 i a) (S4096x64.size a) (S800000x64.size a)).extent (S4096x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x64.size a < S800000x64.size a
  hwx0_2 : ∀ i : grid0.Coords, EltTy.bits .f32 = 32 ∨ (Rect.unit (s := S800000x64) (fun a => cc0_transform_2 i a * S4096x64.size a) (fun a => (Pipeline.Clip.of (cc0_transform_2 i a) (S4096x64.size a) (S800000x64.size a)).extent (S4096x64.size a)) fun a => Pipeline.Clip.inb (Pipeline.Clip.ok_of (hstart0_2 i a))).WholeWords (EltTy.packing .f32)
  hwxs0_2 : ∀ i : grid0.Coords, EltTy.bits .f32 = 32 ∨ (Rect.unit (s := S4096x64) (fun _ => 0) (fun a => (Pipeline.Clip.of (cc0_transform_2 i a) (S4096x64.size a) (S800000x64.size a)).extent (S4096x64.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x192.size a ≤ S192x192.size a
  hwx0_3 : ∀ i : grid0.Coords, EltTy.bits .f32 = 32 ∨ (Rect.block (s := S192x192) S192x192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192.size a ≤ S1x192.size a
  hwx0_4 : ∀ i : grid0.Coords, EltTy.bits .f32 = 32 ∨ (Rect.block (s := S1x192) S1x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x192.size a ≤ S1x192.size a
  hwx0_5 : ∀ i : grid0.Coords, EltTy.bits .f32 = 32 ∨ (Rect.block (s := S1x192) S1x192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x192.size a ≤ S1x192.size a
  hwx0_6 : ∀ i : grid0.Coords, EltTy.bits .f32 = 32 ∨ (Rect.block (s := S1x192) S1x192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x64.size a ≤ S192x64.size a
  hwx0_7 : ∀ i : grid0.Coords, EltTy.bits .f32 = 32 ∨ (Rect.block (s := S192x64) S192x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S4096x64.size a < S800000x64.size a
  hwx0_9 : ∀ i : grid0.Coords, EltTy.bits .f32 = 32 ∨ (Rect.unit (s := S800000x64) (fun a => cc0_transform_9 i a * S4096x64.size a) (fun a => (Pipeline.Clip.of (cc0_transform_9 i a) (S4096x64.size a) (S800000x64.size a)).extent (S4096x64.size a)) fun a => Pipeline.Clip.inb (Pipeline.Clip.ok_of (hstart0_9 i a))).WholeWords (EltTy.packing .f32)
  hwxs0_9 : ∀ i : grid0.Coords, EltTy.bits .f32 = 32 ∨ (Rect.unit (s := S4096x64) (fun _ => 0) (fun a => (Pipeline.Clip.of (cc0_transform_9 i a) (S4096x64.size a) (S800000x64.size a)).extent (S4096x64.size a)) fun a => (Nat.zero_add _).trans_le (Pipeline.Clip.extent_le (Pipeline.Clip.ok_of (hstart0_9 i a)))).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4096x192_S192x192_S4096x192_1_0_0_1_n_n : DotDims S4096x192 S192x192 S4096x192 where
  lhsContracting := [1]
  rhsContracting := [0]
  lhsNonContracting := [0]
  rhsNonContracting := [1]
  lhsBatch := []
  rhsBatch := []
  wf := dot_S4096x192_S192x192_S4096x192_1_0_0_1_n_n_wf
def dot_S4096x192_S192x64_S4096x64_1_0_0_1_n_n : DotDims S4096x192 S192x64 S4096x64 where
  lhsContracting := [1]
  rhsContracting := [0]
  lhsNonContracting := [0]
  rhsNonContracting := [1]
  lhsBatch := []
  rhsBatch := []
  wf := dot_S4096x192_S192x64_S4096x64_1_0_0_1_n_n_wf

abbrev win0_0 : Pipeline.Window sig grid0 :=
  Pipeline.Window.ofSpecClip (Memref.whole main_v10) S4096x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v17) S4096x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg1) S4096x64.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg3) S192x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S192x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpecClip (Memref.whole main_v22) S4096x64.size cc0_transform_9 reads0_9 true false 2 stage0_9 sem0_9
    hrank0 hreads0_9 hstart0_9 nbuf0_9 (Memref.isWhole_whole _) hwx0_9 hwxs0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S2x800000 : Shape := ⟨2, ![2, 800000]⟩
abbrev S192x192 : Shape := ⟨2, ![192, 192]⟩
abbrev S192 : Shape := ⟨1, ![192]⟩
abbrev S192x64 : Shape := ⟨2, ![192, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S1x192 : Shape := ⟨2, ![1, 192]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S2x800000, .i32⟩
  | .hbm, ⟨3, _⟩ => ⟨S192x192, .f32⟩
  | .hbm, ⟨4, _⟩ => ⟨S192, .f32⟩
  | .hbm, ⟨5, _⟩ => ⟨S192, .f32⟩
  | .hbm, ⟨6, _⟩ => ⟨S192, .f32⟩
  | .hbm, ⟨7, _⟩ => ⟨S192x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S800000x192, .f32⟩
  | .hbm, ⟨32, _⟩ => ⟨S800000x192, .f32⟩
  | .hbm, ⟨33, _⟩ => ⟨S1x192, .f32⟩
  | .hbm, ⟨34, _⟩ => ⟨S800000x192, .f32⟩
  | .hbm, ⟨35, _⟩ => ⟨S800000x192, .f32⟩
  | .hbm, ⟨36, _⟩ => ⟨S_, .f32⟩
  | .hbm, ⟨37, _⟩ => ⟨S800000, .f32⟩
  | .hbm, ⟨38, _⟩ => ⟨S800000x1, .f32⟩
  | .hbm, ⟨39, _⟩ => ⟨S_, .f32⟩
  | .hbm, ⟨40, _⟩ => ⟨S800000x1, .f32⟩
  | .hbm, ⟨41, _⟩ => ⟨S800000x1, .f32⟩
  | .hbm, ⟨42, _⟩ => ⟨S800000x192, .f32⟩
  | .hbm, ⟨43, _⟩ => ⟨S800000x192, .f32⟩
  | .hbm, ⟨44, _⟩ => ⟨S800000x192, .f32⟩
  | .hbm, ⟨45, _⟩ => ⟨S_, .f32⟩
  | .hbm, ⟨46, _⟩ => ⟨S800000, .f32⟩
  | .hbm, ⟨47, _⟩ => ⟨S800000x1, .f32⟩
  | .hbm, ⟨48, _⟩ => ⟨S_, .f32⟩
  | .hbm, ⟨49, _⟩ => ⟨S800000x1, .f32⟩
  | .hbm, ⟨50, _⟩ => ⟨S800000x1, .f32⟩
  | .hbm, ⟨51, _⟩ => ⟨S800000x192, .f32⟩
  | .hbm, ⟨52, _⟩ => ⟨S800000x192, .f32⟩
  | .hbm, ⟨53, _⟩ => ⟨S_, .f32⟩
  | .hbm, ⟨54, _⟩ => ⟨S800000x1, .f32⟩
  | .hbm, ⟨55, _⟩ => ⟨S800000x1, .f32⟩
  | .hbm, ⟨56, _⟩ => ⟨S800000x1, .f32⟩
  | .hbm, ⟨57, _⟩ => ⟨S800000x192, .f32⟩
  | .hbm, ⟨58, _⟩ => ⟨S800000x192, .f32⟩
  | .hbm, ⟨59, _⟩ => ⟨S1x192, .f32⟩
  | .hbm, ⟨60, _⟩ => ⟨S800000x192, .f32⟩
  | .hbm, ⟨61, _⟩ => ⟨S800000x192, .f32⟩
  | .hbm, ⟨62, _⟩ => ⟨S1x192, .f32⟩
  | .hbm, ⟨63, _⟩ => ⟨S800000x192, .f32⟩
  | .hbm, ⟨64, _⟩ => ⟨S800000x192, .f32⟩
  | .hbm, ⟨65, _⟩ => ⟨S_, .f32⟩
  | .hbm, ⟨66, _⟩ => ⟨S800000x192, .f32⟩
  | .hbm, ⟨67, _⟩ => ⟨S800000x192, .f32⟩
  | .hbm, ⟨68, _⟩ => ⟨S800000x64, .f32⟩
  | .hbm, ⟨69, _⟩ => ⟨S1x64, .f32⟩
  | .hbm, ⟨70, _⟩ => ⟨S800000x64, .f32⟩
  | .hbm, ⟨71, _⟩ => ⟨S800000x64, .f32⟩
  | .hbm, ⟨72, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call0_cst : Ref sig .tc := ⟨.hbm, 65, rfl⟩
abbrev main_call0_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S192_S1x192_1 : S192.BroadcastsInDim S1x192 (![1] : Fin 1 → Fin S1x192.rank)
  bcast_S1x192_S800000x192_0_1 : S1x192.BroadcastsInDim S800000x192 (![0, 1] : Fin 2 → Fin S800000x192.rank)
  reducesTo_S800000x192_S800000_d1 : S800000x192.ReducesTo [1] S800000
  h_S_ : 0 < S_.numel
  bcast_S_S800000x1 : S_.BroadcastsInDim S800000x1 (![] : Fin 0 → Fin S800000x1.rank)
  bcast_S800000x1_S800000x192_0_1 : S800000x1.BroadcastsInDim S800000x192 (![0, 1] : Fin 2 → Fin S800000x192.rank)
  bcast_S_S800000x192 : S_.BroadcastsInDim S800000x192 (![] : Fin 0 → Fin S800000x192.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  gather_S50000x64_S800000x1_S800000x64_1_0_n_n_0_1_164_wf : GatherDims.WF S50000x64 S800000x1 S800000x64 [1] [0] [] [0] [] 1 ![1, 64]
  dot_S800000x192_S192x192_S800000x192_1_0_0_1_n_n_wf : DotDims.WF S800000x192 S192x192 S800000x192 [1] [0] [0] [1] [] []
  dot_S800000x192_S192x64_S800000x64_1_0_0_1_n_n_wf : DotDims.WF S800000x192 S192x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x192_S800000x192_1_0_0_1_n_n : DotDims S800000x192 S192x192 S800000x192 where
  lhsContracting := [1]
  rhsContracting := [0]
  lhsNonContracting := [0]
  rhsNonContracting := [1]
  lhsBatch := []
  rhsBatch := []
  wf := dot_S800000x192_S192x192_S800000x192_1_0_0_1_n_n_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf

class Facts : Prop extends Facts₀ where

variable [Facts]
-- ==== Proof.KData.lean ====
/-
  The pipeline's proof data, for any float instance.

  The grid has 196 points; point `t` stages rows 4096·t … of the three 800000-row inputs and of the result. Point 195
  reaches past the arrays' end (800000 = 195 · 4096 + 1280): its transfers are cut to the 1280 rows inside, and the rest
  of each staging buffer then holds words nothing names. So what a row-block buffer holds after the body is stated on the
  rows the transfers move, and filled out with the zero word elsewhere (`blkZ`): an input's buffer holds its block; the
  result's buffer holds the body's result of the three zero-filled input blocks and the six parameter blocks. The six
  parameter windows are fetched whole, once, and kept.
-/
import proofs.«140711_j4784593568415_1_alg».proof.Proof.Gen.Kernel.Frame
import proofs.«140711_j4784593568415_1_alg».proof.Proof.Gen.Kernel.Skeleton

set_option maxRecDepth 16384

noncomputable section

namespace Cert.Kernel.Data

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero word, the filler past the arrays' end. -/
abbrev zfill : S4096x64.Idx → Elt F .f32 := fun _ => Scalar.ofBits .f32 0#32

/-- A row-block window's block at point `t` (its rows inside the array), filled out with the zero word. -/
def blkZ0 (c : Dev nD) (t : Fin cfg0.N) : S4096x64.Idx → Elt F .f32 := win0_0.fill (grid0.coords t) zfill (iblk m c 0 t)
def blkZ1 (c : Dev nD) (t : Fin cfg0.N) : S4096x64.Idx → Elt F .f32 := win0_1.fill (grid0.coords t) zfill (iblk m c 1 t)
def blkZ2 (c : Dev nD) (t : Fin cfg0.N) : S4096x64.Idx → Elt F .f32 := win0_2.fill (grid0.coords t) zfill (iblk m c 2 t)

/-- The body's result from what the nine input buffers hold. -/
def outOf (x0 x1 x2 : Vec F S4096x64 .f32) (x3 : Vec F S192x192 .f32) (x4 x5 x6 : Vec F S1x192 .f32)
    (x7 : Vec F S192x64 .f32) (x8 : Vec F S1x64 .f32) : Vec F S4096x64 .f32 :=
  k0_pay1 x2 (k0_pay2 x0 x1 x2 x3 x4 x5) x6 x7 x8

/-- The proof data on core `c`: the arrays as the region finds them; after the body each input buffer at its block
    (a row block zero-filled), the result's at the body's result of those; the class's invariant; nothing owed. -/
def dats (_ : Fin 1) (c : Dev nD) : Dat τ (Elt F) Unit ℕ (UR sig nD τ) ℕ cfg0 c where
  A w := V m c (Pipeline.arrRef spec0 w)
  after w t := match w with
    | ⟨0, _⟩ => blkZ0 m c t
    | ⟨1, _⟩ => blkZ1 m c t
    | ⟨2, _⟩ => blkZ2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outOf (blkZ0 m c t) (blkZ1 m c t) (blkZ2 m c t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = blkZ0 m c t := by dsimp only [dats]
theorem after0_1 (c : Dev nD) (t : Fin cfg0.N) : (dats m 0 c).after 1 t = blkZ1 m c t := by dsimp only [dats]
theorem after0_2 (c : Dev nD) (t : Fin cfg0.N) : (dats m 0 c).after 2 t = blkZ2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = outOf (blkZ0 m c t) (blkZ1 m c t) (blkZ2 m c t) (iblk m c 3 t) (iblk m c 4 t) (iblk m c 5 t) (iblk m c 6 t) (iblk m c 7 t) (iblk m c 8 t) := by
  dsimp only [dats]

/-- A row-block input is fetched at every point: its buffer holds the block on the rows inside the array and what it
    held elsewhere. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
theorem before0_2 (c : Dev nD) (t : Fin cfg0.N) (d) :
    (dats m 0 c).before 2 t d = win0_2.fill (grid0.coords t) d (iblk m c 2 t) := by
  unfold Dat.before; rw [if_pos (fetch0_2 t)]; rfl

/-- A parameter window's one buffer holds its block at every point. -/
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

end Cert.Kernel.Data

end
-- ==== Proof.KBody.lean ====
/-
  The kernel's body as a triple, for any float instance.

  The body reads its nine input buffers whole — three 4096-row blocks (the two gathered node blocks and the edge block),
  the two weight matrices and the four one-row parameter vectors —, computes, and stores one whole 4096 × 64 block into
  the result's buffer (after a dead load of it). So, run on whole buffers holding `x0 … x8` and a tenth holding anything,
  it ends with the nine as they were and the tenth holding `outBlk x0 … x8`: the second payload (bias, rectifier,
  second product, residual) of the first (concatenation, first product, normalization).
-/
import proofs.«140711_j4784593568415_1_alg».proof.Proof.Gen.Kernel.Frame
import proofs.«140711_j4784593568415_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Both offsets of a rank-two access at the origin are zero. -/
private theorem origin2 : (![0, 0] : Fin 2 → Nat) = fun _ => 0 := funext fun a => by fin_cases a <;> rfl

/-- A load through the whole-shape rectangle at the origin reads the buffer's contents. -/
private theorem readAt_whole {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- One unmasked store through the whole-shape rectangle at the origin leaves its payload, whatever was there:
    the one piece covers every index, and the canon of one covering piece is its payload. -/
private theorem read_store_whole {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f [(⟨Rect.unit off S.size inb, w⟩ : View.Piece Val S e)]
    (fun y => ⟨⟨Rect.unit off S.size inb, w⟩, List.mem_singleton_self _, View.mem_set_unit_zero h inb y⟩)).trans
    (View.canon_unit_zero h inb w)

/-- What the body leaves in the result's buffer, from what the nine input buffers hold. -/
def outBlk (x0 x1 x2 : Vec F S4096x64 .f32) (x3 : Vec F S192x192 .f32) (x4 x5 x6 : Vec F S1x192 .f32)
    (x7 : Vec F S192x64 .f32) (x8 : Vec F S1x64 .f32) : Vec F S4096x64 .f32 :=
  k0_pay1 x2 (k0_pay2 x0 x1 x2 x3 x4 x5) x6 x7 x8

/-- The body on whole buffers: the nine inputs kept, the result's buffer left at `outBlk`. -/
theorem sound_kernel (c : Dev nD) (E : Set ℕ) (i : grid0.Coords) (arg1 : Memref sig .tc .vmem S4096x64 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S192x192 .f32) (harg4 : arg4.IsWhole) (arg5 : Memref sig .tc .vmem S1x192 .f32) (harg5 : arg5.IsWhole) (arg6 : Memref sig .tc .vmem S1x192 .f32) (harg6 : arg6.IsWhole) (arg7 : Memref sig .tc .vmem S1x192 .f32) (harg7 : arg7.IsWhole) (arg8 : Memref sig .tc .vmem S192x64 .f32) (harg8 : arg8.IsWhole) (arg9 : Memref sig .tc .vmem S1x64 .f32) (harg9 : arg9.IsWhole) (arg10 : Memref sig .tc .vmem S4096x64 .f32) (harg10 : arg10.IsWhole)
    (x0 x1 x2 : Vec F S4096x64 .f32) (x3 : Vec F S192x192 .f32) (x4 x5 x6 : Vec F S1x192 .f32)
    (x7 : Vec F S192x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlk x0 x1 x2 x3 x4 x5 x6 x7 x8)) -∗ K ⟨⟩))
      ⊢ wp frame (wpE (defs₀ (F := F)) Variants.none c none) E (cc0__mlp_ln_relu_residual_kernel i arg1 harg1 arg2 harg2 arg3 harg3 arg4 harg4 arg5 harg5 arg6 harg6 arg7 harg7 arg8 harg8 arg9 harg9 arg10 harg10) K := by
  -- the function and its first part, as their memory operations over the payloads
  simp only [cc0__mlp_ln_relu_residual_kernel_eq_skeleton]; unfold cc0__mlp_ln_relu_residual_kernel_skel
  simp only [k0_part1_eq_skeleton]; unfold k0_part1_skel
  -- each buffer's contents named; the nine inputs read `x0 … x8`
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  -- the nine whole loads, the dead load, the one whole store, the return
  sl_exec
  sl_step
  iapply Hk
  -- the nine inputs hold what they held
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  -- the result's buffer holds the stored payload: the one store covers it, and each whole load read its buffer's contents
  iexists _; isplitr
  swap; · iexact H9
  ipureintro
  refine (read_store_whole (S := S4096x64) arg10.view f9 origin2 inb_S4096x64_S4096x64_0_0 _).trans ?_
  simp only [readAt_whole (S := S4096x64) _ _ origin2, readAt_whole (S := S192x192) _ _ origin2,
    readAt_whole (S := S1x192) _ _ origin2, readAt_whole (S := S192x64) _ _ origin2,
    readAt_whole (S := S1x64) _ _ origin2]
  rfl

end Cert.Kernel.Body

end
-- ==== Proof.KOblig.lean ====
/-
  The frame of the kernel's program, for any float instance.

  At each grid point the body is handed the ten staging buffers: the three row-block inputs just fetched (their block
  on the rows inside the array, anything elsewhere), the six parameter blocks, and the result's buffer at anything. It
  hands the nine inputs back as they were and the result's buffer at the body's result of them. For the FRAME nothing
  need be said of that result: the result's window is forgotten (its buffer goes in and comes back at contents nothing
  names), so the statement holds whether or not the matrix product of an instance acts row by row. Every weakly fair
  execution of @main then terminates, and the nine argument arrays end as launched: the edge features and the two
  weight matrices are staged inputs no write-back touches; the others no window stages at all.
-/
import proofs.«140711_j4784593568415_1_alg».proof.Proof.KData
import proofs.«140711_j4784593568415_1_alg».proof.Proof.KBody

set_option maxRecDepth 16384

noncomputable section

namespace Cert.Kernel.Oblig

open Cert.Kernel Cert.Kernel.Gen Cert.Kernel.Data
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window the frame says nothing of: the result's. -/
abbrev fgt9 : Fin 10 → Bool := fun | 0 => false | 1 => false | 2 => false | 3 => false | 4 => false | 5 => false | 6 => false | 7 => false | 8 => false | 9 => true | ⟨_ + 10, h⟩ => absurd h (Nat.not_lt.2 (Nat.le_add_left _ _))

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X))

/-- and what it hands back: a row-block input stated on the rows its transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X))

/-- The body at any point: the body's triple at what the buffers hold; the inputs come back as they went in, and on
    the rows a row block's transfers move that is the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%X9, H9⟩⟩
  iapply (Cert.Kernel.Body.sound_kernel c Set.univ (grid0.coords t) _ _ _ _ _ _ _ _ _ _ _ _ _ _ _ _ _ _ _ _
    (win0_0.fill (grid0.coords t) d0 (iblk m c 0 t)) (win0_1.fill (grid0.coords t) d1 (iblk m c 1 t)) (win0_2.fill (grid0.coords t) d2 (iblk m c 2 t))
    (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  have h0 : win0_0.cut (grid0.coords t) (blkZ0 m c t) = iblk m c 0 t := win0_0.cut_fill _ _ _
  have h1 : win0_1.cut (grid0.coords t) (blkZ1 m c t) = iblk m c 1 t := win0_1.cut_fill _ _ _
  have h2 : win0_2.cut (grid0.coords t) (blkZ2 m c t) = iblk m c 2 t := win0_2.cut_fill _ _ _
  isplitl [H0]
  · iexists d0
    change _ ⊢ owns (c : Thread nD τ) (st0_0 t) fullShare (win0_0.fill (grid0.coords t) d0 (win0_0.cut (grid0.coords t) (blkZ0 m c t)))
    rw [h0]
  isplitl [H1]
  · iexists d1
    change _ ⊢ owns (c : Thread nD τ) (st0_1 t) fullShare (win0_1.fill (grid0.coords t) d1 (win0_1.cut (grid0.coords t) (blkZ1 m c t)))
    rw [h1]
  isplitl [H2]
  · iexists d2
    change _ ⊢ owns (c : Thread nD τ) (st0_2 t) fullShare (win0_2.fill (grid0.coords t) d2 (win0_2.cut (grid0.coords t) (blkZ2 m c t)))
    rw [h2]
  isplitl [H3]; · iexact H3
  isplitl [H4]; · iexact H4
  isplitl [H5]; · iexact H5
  isplitl [H6]; · iexact H6
  isplitl [H7]; · iexact H7
  isplitl [H8]; · iexact H8
  iexists _; iexact H9

/-- The library's body obligation with the result's window forgotten, at every point. -/
theorem body_obligation (c : Dev nD) : BodyObligationLoose (dats (F := F) m 0 c) (defs₀ (F := F)) Variants.none () Set.univ fgt9 := fun t => by
  rw [bigSep_W0, bigSep_W0]
  exact sound_body m c t

-- the launch theorem's implicit arguments are found by unifying its conclusion with this one
set_option backward.isDefEq.respectTransparency.types false in
/-- Every weakly fair execution of @main terminates; each staged array ends at contents it may hold after the
    write-backs (an input: its entry contents), every other unscoped buffer as the region found it. -/
theorem run_main : θ_run defs (onTc (τ := τ) (main (F := F))) (s₀ m ρ)
    (Pipeline.RDat.FramePost cfg0 (fun c => (dats m 0 c).toRForget fgt9) (V m)) :=
  Pipeline.RDat.θ_run_frame cfgs (0 : Fin 1) launch0 defs₀ Variants.none (fun c => (dats m 0 c).toRForget fgt9) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- A staged input array ends as the region found it. -/
theorem kept_in (r : PUnit × MemSt nD τ sig (Elt F))
    (h : Pipeline.RDat.FramePost cfg0 (fun c => (dats m 0 c).toRForget fgt9) (V m) r) (c : Dev nD) (w : Fin cfg0.W)
    (hin : (cfg0.win w).isOut = false) :
    r.2.mem ((cfg0.spec w).arr.view.loc (c.tc : Thread nD τ)) = V m c (Pipeline.arrRef spec0 w) := by
  have hw := (h c).1 w
  rw [RDat.ArrAt_in _ w hin] at hw
  exact hw.trans (A_eq m c w)

/-- THE FRAME: the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).2 main_arg0 (Pipeline.mem_restRefs_of main_arg0 (by decide) (by decide))).trans (V_main_arg0 m c),
      (kept_in m r h c 2 rfl).trans (V_main_arg1 m c),
      ((h c).2 main_arg2 (Pipeline.mem_restRefs_of main_arg2 (by decide) (by decide))).trans (V_main_arg2 m c),
      (kept_in m r h c 3 rfl).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (kept_in m r h c 7 rfl).trans (V_main_arg7 m c),
      ((h c).2 main_arg8 (Pipeline.mem_restRefs_of main_arg8 (by decide) (by decide))).trans (V_main_arg8 m c)⟩) (run_main m ρ)

end Cert.Kernel.Oblig

end
-- ==== Proof.Data.lean ====
/-
  The pipeline's proof data, for any float instance.

  The grid has 196 points; point `t` stages rows 4096·t … of the three 800000-row inputs and of the result. Point 195
  reaches past the arrays' end (800000 = 195 · 4096 + 1280): its transfers are cut to the 1280 rows inside, and the rest
  of each staging buffer then holds words nothing names. So what a row-block buffer holds after the body is stated on the
  rows the transfers move, and filled out with the zero word elsewhere (`blkZ`): an input's buffer holds its block; the
  result's buffer holds the body's result of the three zero-filled input blocks and the six parameter blocks. The six
  parameter windows are fetched whole, once, and kept.
-/
import proofs.«140711_j4784593568415_1_alg».proof.Proof.Gen.KernelIdeal.Frame
import proofs.«140711_j4784593568415_1_alg».proof.Proof.Gen.KernelIdeal.Skeleton

set_option maxRecDepth 16384

noncomputable section

namespace Cert.KernelIdeal.Data

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero word, the filler past the arrays' end. -/
abbrev zfill : S4096x64.Idx → Elt F .f32 := fun _ => Scalar.ofBits .f32 0#32

/-- A row-block window's block at point `t` (its rows inside the array), filled out with the zero word. -/
def blkZ0 (c : Dev nD) (t : Fin cfg0.N) : S4096x64.Idx → Elt F .f32 := win0_0.fill (grid0.coords t) zfill (iblk m c 0 t)
def blkZ1 (c : Dev nD) (t : Fin cfg0.N) : S4096x64.Idx → Elt F .f32 := win0_1.fill (grid0.coords t) zfill (iblk m c 1 t)
def blkZ2 (c : Dev nD) (t : Fin cfg0.N) : S4096x64.Idx → Elt F .f32 := win0_2.fill (grid0.coords t) zfill (iblk m c 2 t)

/-- The body's result from what the nine input buffers hold. -/
def outOf (x0 x1 x2 : Vec F S4096x64 .f32) (x3 : Vec F S192x192 .f32) (x4 x5 x6 : Vec F S1x192 .f32)
    (x7 : Vec F S192x64 .f32) (x8 : Vec F S1x64 .f32) : Vec F S4096x64 .f32 :=
  k0_pay1 x2 (k0_pay2 x0 x1 x2 x3 x4 x5) x6 x7 x8

/-- The proof data on core `c`: the arrays as the region finds them; after the body each input buffer at its block
    (a row block zero-filled), the result's at the body's result of those; the class's invariant; nothing owed. -/
def dats (_ : Fin 1) (c : Dev nD) : Dat τ (Elt F) Unit ℕ (UR sig nD τ) ℕ cfg0 c where
  A w := V m c (Pipeline.arrRef spec0 w)
  after w t := match w with
    | ⟨0, _⟩ => blkZ0 m c t
    | ⟨1, _⟩ => blkZ1 m c t
    | ⟨2, _⟩ => blkZ2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outOf (blkZ0 m c t) (blkZ1 m c t) (blkZ2 m c t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = blkZ0 m c t := by dsimp only [dats]
theorem after0_1 (c : Dev nD) (t : Fin cfg0.N) : (dats m 0 c).after 1 t = blkZ1 m c t := by dsimp only [dats]
theorem after0_2 (c : Dev nD) (t : Fin cfg0.N) : (dats m 0 c).after 2 t = blkZ2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = outOf (blkZ0 m c t) (blkZ1 m c t) (blkZ2 m c t) (iblk m c 3 t) (iblk m c 4 t) (iblk m c 5 t) (iblk m c 6 t) (iblk m c 7 t) (iblk m c 8 t) := by
  dsimp only [dats]

/-- A row-block input is fetched at every point: its buffer holds the block on the rows inside the array and what it
    held elsewhere. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
theorem before0_2 (c : Dev nD) (t : Fin cfg0.N) (d) :
    (dats m 0 c).before 2 t d = win0_2.fill (grid0.coords t) d (iblk m c 2 t) := by
  unfold Dat.before; rw [if_pos (fetch0_2 t)]; rfl

/-- A parameter window's one buffer holds its block at every point. -/
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

end Cert.KernelIdeal.Data

end
-- ==== Proof.Body.lean ====
/-
  The kernel's body as a triple, for any float instance.

  The body reads its nine input buffers whole — three 4096-row blocks (the two gathered node blocks and the edge block),
  the two weight matrices and the four one-row parameter vectors —, computes, and stores one whole 4096 × 64 block into
  the result's buffer (after a dead load of it). So, run on whole buffers holding `x0 … x8` and a tenth holding anything,
  it ends with the nine as they were and the tenth holding `outBlk x0 … x8`: the second payload (bias, rectifier,
  second product, residual) of the first (concatenation, first product, normalization).
-/
import proofs.«140711_j4784593568415_1_alg».proof.Proof.Gen.KernelIdeal.Frame
import proofs.«140711_j4784593568415_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Both offsets of a rank-two access at the origin are zero. -/
private theorem origin2 : (![0, 0] : Fin 2 → Nat) = fun _ => 0 := funext fun a => by fin_cases a <;> rfl

/-- A load through the whole-shape rectangle at the origin reads the buffer's contents. -/
private theorem readAt_whole {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- One unmasked store through the whole-shape rectangle at the origin leaves its payload, whatever was there:
    the one piece covers every index, and the canon of one covering piece is its payload. -/
private theorem read_store_whole {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f [(⟨Rect.unit off S.size inb, w⟩ : View.Piece Val S e)]
    (fun y => ⟨⟨Rect.unit off S.size inb, w⟩, List.mem_singleton_self _, View.mem_set_unit_zero h inb y⟩)).trans
    (View.canon_unit_zero h inb w)

/-- What the body leaves in the result's buffer, from what the nine input buffers hold. -/
def outBlk (x0 x1 x2 : Vec F S4096x64 .f32) (x3 : Vec F S192x192 .f32) (x4 x5 x6 : Vec F S1x192 .f32)
    (x7 : Vec F S192x64 .f32) (x8 : Vec F S1x64 .f32) : Vec F S4096x64 .f32 :=
  k0_pay1 x2 (k0_pay2 x0 x1 x2 x3 x4 x5) x6 x7 x8

/-- The body on whole buffers: the nine inputs kept, the result's buffer left at `outBlk`. -/
theorem sound_kernel (c : Dev nD) (E : Set ℕ) (i : grid0.Coords) (arg1 : Memref sig .tc .vmem S4096x64 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S192x192 .f32) (harg4 : arg4.IsWhole) (arg5 : Memref sig .tc .vmem S1x192 .f32) (harg5 : arg5.IsWhole) (arg6 : Memref sig .tc .vmem S1x192 .f32) (harg6 : arg6.IsWhole) (arg7 : Memref sig .tc .vmem S1x192 .f32) (harg7 : arg7.IsWhole) (arg8 : Memref sig .tc .vmem S192x64 .f32) (harg8 : arg8.IsWhole) (arg9 : Memref sig .tc .vmem S1x64 .f32) (harg9 : arg9.IsWhole) (arg10 : Memref sig .tc .vmem S4096x64 .f32) (harg10 : arg10.IsWhole)
    (x0 x1 x2 : Vec F S4096x64 .f32) (x3 : Vec F S192x192 .f32) (x4 x5 x6 : Vec F S1x192 .f32)
    (x7 : Vec F S192x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlk x0 x1 x2 x3 x4 x5 x6 x7 x8)) -∗ K ⟨⟩))
      ⊢ wp frame (wpE (defs₀ (F := F)) Variants.none c none) E (cc0__mlp_ln_relu_residual_kernel i arg1 harg1 arg2 harg2 arg3 harg3 arg4 harg4 arg5 harg5 arg6 harg6 arg7 harg7 arg8 harg8 arg9 harg9 arg10 harg10) K := by
  -- the function and its first part, as their memory operations over the payloads
  simp only [cc0__mlp_ln_relu_residual_kernel_eq_skeleton]; unfold cc0__mlp_ln_relu_residual_kernel_skel
  simp only [k0_part1_eq_skeleton]; unfold k0_part1_skel
  -- each buffer's contents named; the nine inputs read `x0 … x8`
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  -- the nine whole loads, the dead load, the one whole store, the return
  sl_exec
  sl_step
  iapply Hk
  -- the nine inputs hold what they held
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  -- the result's buffer holds the stored payload: the one store covers it, and each whole load read its buffer's contents
  iexists _; isplitr
  swap; · iexact H9
  ipureintro
  refine (read_store_whole (S := S4096x64) arg10.view f9 origin2 inb_S4096x64_S4096x64_0_0 _).trans ?_
  simp only [readAt_whole (S := S4096x64) _ _ origin2, readAt_whole (S := S192x192) _ _ origin2,
    readAt_whole (S := S1x192) _ _ origin2, readAt_whole (S := S192x64) _ _ origin2,
    readAt_whole (S := S1x64) _ _ origin2]
  rfl

end Cert.KernelIdeal.Body

end
-- ==== Proof.Oblig.lean ====
/-
  The frame of the kernel's program, for any float instance.

  At each grid point the body is handed the ten staging buffers: the three row-block inputs just fetched (their block
  on the rows inside the array, anything elsewhere), the six parameter blocks, and the result's buffer at anything. It
  hands the nine inputs back as they were and the result's buffer at the body's result of them. For the FRAME nothing
  need be said of that result: the result's window is forgotten (its buffer goes in and comes back at contents nothing
  names), so the statement holds whether or not the matrix product of an instance acts row by row. Every weakly fair
  execution of @main then terminates, and the nine argument arrays end as launched: the edge features and the two
  weight matrices are staged inputs no write-back touches; the others no window stages at all.
-/
import proofs.«140711_j4784593568415_1_alg».proof.Proof.Data
import proofs.«140711_j4784593568415_1_alg».proof.Proof.Body

set_option maxRecDepth 16384

noncomputable section

namespace Cert.KernelIdeal.Oblig

open Cert.KernelIdeal Cert.KernelIdeal.Gen Cert.KernelIdeal.Data
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window the frame says nothing of: the result's. -/
abbrev fgt9 : Fin 10 → Bool := fun | 0 => false | 1 => false | 2 => false | 3 => false | 4 => false | 5 => false | 6 => false | 7 => false | 8 => false | 9 => true | ⟨_ + 10, h⟩ => absurd h (Nat.not_lt.2 (Nat.le_add_left _ _))

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X))

/-- and what it hands back: a row-block input stated on the rows its transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X))

/-- The body at any point: the body's triple at what the buffers hold; the inputs come back as they went in, and on
    the rows a row block's transfers move that is the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%X9, H9⟩⟩
  iapply (Cert.KernelIdeal.Body.sound_kernel c Set.univ (grid0.coords t) _ _ _ _ _ _ _ _ _ _ _ _ _ _ _ _ _ _ _ _
    (win0_0.fill (grid0.coords t) d0 (iblk m c 0 t)) (win0_1.fill (grid0.coords t) d1 (iblk m c 1 t)) (win0_2.fill (grid0.coords t) d2 (iblk m c 2 t))
    (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  have h0 : win0_0.cut (grid0.coords t) (blkZ0 m c t) = iblk m c 0 t := win0_0.cut_fill _ _ _
  have h1 : win0_1.cut (grid0.coords t) (blkZ1 m c t) = iblk m c 1 t := win0_1.cut_fill _ _ _
  have h2 : win0_2.cut (grid0.coords t) (blkZ2 m c t) = iblk m c 2 t := win0_2.cut_fill _ _ _
  isplitl [H0]
  · iexists d0
    change _ ⊢ owns (c : Thread nD τ) (st0_0 t) fullShare (win0_0.fill (grid0.coords t) d0 (win0_0.cut (grid0.coords t) (blkZ0 m c t)))
    rw [h0]
  isplitl [H1]
  · iexists d1
    change _ ⊢ owns (c : Thread nD τ) (st0_1 t) fullShare (win0_1.fill (grid0.coords t) d1 (win0_1.cut (grid0.coords t) (blkZ1 m c t)))
    rw [h1]
  isplitl [H2]
  · iexists d2
    change _ ⊢ owns (c : Thread nD τ) (st0_2 t) fullShare (win0_2.fill (grid0.coords t) d2 (win0_2.cut (grid0.coords t) (blkZ2 m c t)))
    rw [h2]
  isplitl [H3]; · iexact H3
  isplitl [H4]; · iexact H4
  isplitl [H5]; · iexact H5
  isplitl [H6]; · iexact H6
  isplitl [H7]; · iexact H7
  isplitl [H8]; · iexact H8
  iexists _; iexact H9

/-- The library's body obligation with the result's window forgotten, at every point. -/
theorem body_obligation (c : Dev nD) : BodyObligationLoose (dats (F := F) m 0 c) (defs₀ (F := F)) Variants.none () Set.univ fgt9 := fun t => by
  rw [bigSep_W0, bigSep_W0]
  exact sound_body m c t

-- the launch theorem's implicit arguments are found by unifying its conclusion with this one
set_option backward.isDefEq.respectTransparency.types false in
/-- Every weakly fair execution of @main terminates; each staged array ends at contents it may hold after the
    write-backs (an input: its entry contents), every other unscoped buffer as the region found it. -/
theorem run_main : θ_run defs (onTc (τ := τ) (main (F := F))) (s₀ m ρ)
    (Pipeline.RDat.FramePost cfg0 (fun c => (dats m 0 c).toRForget fgt9) (V m)) :=
  Pipeline.RDat.θ_run_frame cfgs (0 : Fin 1) launch0 defs₀ Variants.none (fun c => (dats m 0 c).toRForget fgt9) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- A staged input array ends as the region found it. -/
theorem kept_in (r : PUnit × MemSt nD τ sig (Elt F))
    (h : Pipeline.RDat.FramePost cfg0 (fun c => (dats m 0 c).toRForget fgt9) (V m) r) (c : Dev nD) (w : Fin cfg0.W)
    (hin : (cfg0.win w).isOut = false) :
    r.2.mem ((cfg0.spec w).arr.view.loc (c.tc : Thread nD τ)) = V m c (Pipeline.arrRef spec0 w) := by
  have hw := (h c).1 w
  rw [RDat.ArrAt_in _ w hin] at hw
  exact hw.trans (A_eq m c w)

/-- THE FRAME: the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).2 main_arg0 (Pipeline.mem_restRefs_of main_arg0 (by decide) (by decide))).trans (V_main_arg0 m c),
      (kept_in m r h c 2 rfl).trans (V_main_arg1 m c),
      ((h c).2 main_arg2 (Pipeline.mem_restRefs_of main_arg2 (by decide) (by decide))).trans (V_main_arg2 m c),
      (kept_in m r h c 3 rfl).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (kept_in m r h c 7 rfl).trans (V_main_arg7 m c),
      ((h c).2 main_arg8 (Pipeline.mem_restRefs_of main_arg8 (by decide) (by decide))).trans (V_main_arg8 m c)⟩) (run_main m ρ)

end Cert.KernelIdeal.Oblig

end
-- ==== Proof.Spec.lean ====
/-
  One edge's update, on the extended reals.

  An edge carries three 64-vectors laid end to end into one 192-vector `x` (its source node's row, its target node's
  row, its own features `e`). The update is

      h   = x · W₁ + b₁                                  (192 entries, each a sum of 192 products)
      μ   = (∑ⱼ hⱼ) / 192,   dⱼ = hⱼ − μ,   v = (∑ⱼ dⱼ · dⱼ) / 192
      aⱼ  = max (dⱼ · (v + ε)^(−1/2) · γⱼ + βⱼ, 0)
      out = a · W₂ + b₂ + e                              (64 entries, each a sum of 192 products)

  with the quotient, the inverse square root and the maximum the extended reals' own, and 192, ε and 0 the values three
  binary words denote. Every entry of the result depends on ONE edge's three rows only.
-/
import Idealize.ShloMosaic.PureOps.Ideal.Laws

noncomputable section

namespace Cert.Spec

open Idealize.ShloMosaic

/-- Three 64-vectors laid end to end. -/
def cat3 (a b c : Fin 64 → EReal) (k : Fin 192) : EReal :=
  if h : k.val < 64 then a ⟨k.val, h⟩
  else if h2 : k.val < 128 then b ⟨k.val - 64, by omega⟩
  else c ⟨k.val - 128, by omega⟩

/-- The row length as the word the programs divide by, the variance's offset, and the floor of the rectifier. -/
def c192 : EReal := Ideal.ofBits .f32 0x43400000#32
def eps : EReal := Ideal.ofBits .f32 0x3727C5AC#32
def floor0 : EReal := Ideal.ofBits .f32 0x00000000#32

/-- The first linear layer at entry `j`. -/
def lin (x : Fin 192 → EReal) (W : Fin 192 → Fin 192 → EReal) (b : Fin 192 → EReal) (j : Fin 192) : EReal :=
  (∑ k : Fin 192, x k * W k j) + b j

/-- A row's mean, its deviations from it, and their mean square. -/
def mean (h : Fin 192 → EReal) : EReal := Ideal.div (∑ j : Fin 192, h j) c192
def dev (h : Fin 192 → EReal) (j : Fin 192) : EReal := h j - mean h
def var (h : Fin 192 → EReal) : EReal := Ideal.div (∑ j : Fin 192, dev h j * dev h j) c192

/-- The normalized, scaled, shifted and rectified row at entry `j`. -/
def act (h g be : Fin 192 → EReal) (j : Fin 192) : EReal :=
  max (dev h j * Ideal.rsqrt (var h + eps) * g j + be j) floor0

/-- The edge's new features at entry `q`. -/
def edgeOut (x : Fin 192 → EReal) (e : Fin 64 → EReal) (W1 : Fin 192 → Fin 192 → EReal) (b1 g be : Fin 192 → EReal)
    (W2 : Fin 192 → Fin 64 → EReal) (b2 : Fin 64 → EReal) (q : Fin 64) : EReal :=
  (∑ j : Fin 192, act (lin x W1 b1) g be j * W2 j q) + b2 q + e q

/-- The result depends on the concatenated row only through its three parts. -/
theorem cat3_congr {a a' b b' c c' : Fin 64 → EReal} (ha : a = a') (hb : b = b') (hc : c = c') : cat3 a b c = cat3 a' b' c' := by
  subst ha hb hc; rfl

end Cert.Spec

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.LibCat3.lean ====
/-
  Three rank-2 vectors of 64 lanes joined along the lanes, read at one element, for any row count.

  The join of `x`, `y`, `z : [A, 64]` along axis 1 is an `[A, 192]` vector; at row `p` and lane `k` it is `x (p, k)`
  for `k < 64`, `y (p, k − 64)` for `64 ≤ k < 128`, and `z (p, k − 128)` otherwise: the lane decides the piece, the
  row passes through.
-/
import Idealize.ShloMosaic.Lib.ValueIdx
import Idealize.ShloMosaic.Lib.Pipeline.Value

namespace Cert.Lib.Cat3

open Idealize.ShloMosaic Idealize.ShloMosaic.ValueIdx

variable {α : Type} {A : Nat}

/-- The join of three `[A, 64]` vectors along the lanes, at `(p, k)`: the piece whose span of 64 lanes holds `k`, read
    at row `p` and at `k` less the lanes before that piece. -/
theorem concatenate3_apply (x y z : (⟨2, ![A, 64]⟩ : Shape).Idx → α)
    (h : Shape.Concatenates [(⟨2, ![A, 64]⟩ : Shape), ⟨2, ![A, 64]⟩, ⟨2, ![A, 64]⟩] ⟨2, ![A, 192]⟩ 1) (p : Fin A) (k : Fin 192) :
    concatenate ⟨2, ![A, 192]⟩ 1 [⟨⟨2, ![A, 64]⟩, x⟩, ⟨⟨2, ![A, 64]⟩, y⟩, ⟨⟨2, ![A, 64]⟩, z⟩] h (ix2 p k)
      = if h1 : k.val < 64 then x (ix2 p ⟨k.val, h1⟩)
        else if h2 : k.val < 128 then y (ix2 p ⟨k.val - 64, by omega⟩)
        else z (ix2 p ⟨k.val - 128, by omega⟩) := by
  split
  · next h1 =>
    refine concatenate_apply_piece (t := ⟨2, ![A, 192]⟩) 1 [⟨⟨2, ![A, 64]⟩, x⟩, ⟨⟨2, ![A, 64]⟩, y⟩, ⟨⟨2, ![A, 64]⟩, z⟩] h (ix2 p k) 0
      (by show 0 < 3; omega) _ x rfl rfl 0 rfl (ix2 p ⟨k.val, h1⟩) ?_ ?_
    · intro b hb
      match b with
      | ⟨0, _⟩ => rfl
      | ⟨1, _⟩ => exact absurd rfl hb
    · show 0 + k.val = k.val
      omega
  · next h1 =>
    split
    · next h2 =>
      refine concatenate_apply_piece (t := ⟨2, ![A, 192]⟩) 1 [⟨⟨2, ![A, 64]⟩, x⟩, ⟨⟨2, ![A, 64]⟩, y⟩, ⟨⟨2, ![A, 64]⟩, z⟩] h (ix2 p k) 1
        (by show 1 < 3; omega) _ y rfl rfl 64 rfl (ix2 p ⟨k.val - 64, by omega⟩) ?_ ?_
      · intro b hb
        match b with
        | ⟨0, _⟩ => rfl
        | ⟨1, _⟩ => exact absurd rfl hb
      · show 64 + (k.val - 64) = k.val
        omega
    · next h2 =>
      refine concatenate_apply_piece (t := ⟨2, ![A, 192]⟩) 1 [⟨⟨2, ![A, 64]⟩, x⟩, ⟨⟨2, ![A, 64]⟩, y⟩, ⟨⟨2, ![A, 64]⟩, z⟩] h (ix2 p k) 2
        (by show 2 < 3; omega) _ z rfl rfl 128 rfl (ix2 p ⟨k.val - 128, by omega⟩) ?_ ?_
      · intro b hb
        match b with
        | ⟨0, _⟩ => rfl
        | ⟨1, _⟩ => exact absurd rfl hb
      · show 128 + (k.val - 128) = k.val
        omega

end Cert.Lib.Cat3
-- ==== Proof.PayIdeal.lean ====
/-
  The body's result block read at one element, at the extended reals.

  At row `p` and lane `q` of the 4096 × 64 block the body stores, the value is the edge update (Spec.lean) of ROW `p`
  ALONE of the three 4096-row input blocks: the concatenation, the two matrix products, the two lane sums and the
  broadcasts all act row by row, and a change of float format is the identity on the extended reals.

  The road: the first linear layer as an array (`lin1`) reads at `(p, j)` as `Spec.lin` of row `p`; the lane mean,
  the deviations and the inverse root of the offset mean square of ANY 4096 × 192 array read row by row as
  `Spec.mean`, `Spec.dev`, `Spec.var`; the second payload is that normalization of `lin1` times the `γ` row; the
  first payload over any normalized array is the rectified row times `W₂`, plus the `b₂` row, plus the edge block.
-/
import proofs.«140711_j4784593568415_1_alg».proof.Proof.Gen.KernelIdeal.Skeleton
import proofs.«140711_j4784593568415_1_alg».proof.Proof.Spec
import proofs.«140711_j4784593568415_1_alg».proof.Proof.LibRowwise
import proofs.«140711_j4784593568415_1_alg».proof.Proof.LibCat3

noncomputable section

namespace Cert.KernelIdeal.Pay

open Cert.KernelIdeal Cert.KernelIdeal.Gen
open Idealize.ShloMosaic Idealize.ShloMosaic.ValueIdx
open Cert.Lib.Rowwise

/-! ## A row broadcast over many rows -/

/-- A one-row array, cast to its own shape and broadcast over `A` rows, reads at `(p, q)` the row at `q`. -/
theorem rowBroadcast_apply {α : Type} {A B : Nat} (v : (⟨2, ![1, B]⟩ : Shape).Idx → α)
    (hc : (⟨2, ![1, B]⟩ : Shape).ShapeCasts ⟨2, ![1, B]⟩) (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix2 (0 : Fin 1) q) := by
  rw [shapeCast_self]
  refine broadcastTo_apply v hb (ix2 p q) (ix2 (0 : Fin 1) q) fun a => ?_
  match a with
  | ⟨0, _⟩ => rfl
  | ⟨1, _⟩ =>
    show q.val = if B = 1 then 0 else q.val
    split
    · have := q.isLt; omega
    · rfl

/-! ## The two matrix products -/

/-- The first product into the zero word, at `(p, j)`. -/
theorem matmul1_apply (a : FVec Ideal S4096x192 .bf16) (b : FVec Ideal S192x192 .bf16) (p : Fin 4096) (j : Fin 192) :
    matmul dot_S4096x192_S192x192_S4096x192_1_0_0_1_n_n none a b (constant (F := Ideal) S4096x192 .f32 0x00000000#32) (ix2 p j)
      = ∑ k : Fin 192, a (ix2 p k) * b (ix2 k j) := by
  rw [eq_plain dot_S4096x192_S192x192_S4096x192_1_0_0_1_n_n rfl rfl rfl rfl rfl rfl]
  exact plain_matmul_zero_apply none a b p j

/-- The second product into the zero word, at `(p, q)`. -/
theorem matmul2_apply (a : FVec Ideal S4096x192 .bf16) (b : FVec Ideal S192x64 .bf16) (p : Fin 4096) (q : Fin 64) :
    matmul dot_S4096x192_S192x64_S4096x64_1_0_0_1_n_n none a b (constant (F := Ideal) S4096x64 .f32 0x00000000#32) (ix2 p q)
      = ∑ k : Fin 192, a (ix2 p k) * b (ix2 k q) := by
  rw [eq_plain dot_S4096x192_S192x64_S4096x64_1_0_0_1_n_n rfl rfl rfl rfl rfl rfl]
  exact plain_matmul_zero_apply none a b p q

/-! ## The normalization of a `4096 × 192` array, row by row -/

section Norm

/-- The lane sums of `h` over `192`, as a column. -/
def colMean (h : FVec Ideal S4096x192 .f32) : FVec Ideal S4096x1 .f32 :=
  divf (shapeCast S4096x1 (multiReduction (F := Ideal) .add [1] S4096 h 0x00000000#32 reduces_S4096x192_S4096 (.inl rfl) rfl)
      shapeCasts_S4096_S4096x1)
    (broadcast S4096x1 (Scalar.ofBits (F := Ideal) .f32 0x43400000#32))

/-- `h` less its rows' means. -/
def devs (h : FVec Ideal S4096x192 .f32) : FVec Ideal S4096x192 .f32 :=
  subf h (broadcastTo S4096x192 (colMean h) broadcasts_S4096x1_S4096x192)

/-- The inverse square roots of the rows' mean squares, offset, as a column. -/
def colRsqrt (h : FVec Ideal S4096x192 .f32) : FVec Ideal S4096x1 .f32 :=
  rsqrt (addf (colMean (mulf (devs h) (devs h))) (broadcast S4096x1 (Scalar.ofBits (F := Ideal) .f32 0x3727C5AC#32)))

variable (h : FVec Ideal S4096x192 .f32)

theorem colMean_apply (p : Fin 4096) (u : Fin 1) : colMean h (ix2 p u) = Cert.Spec.mean (fun j => h (ix2 p j)) := by
  unfold colMean Cert.Spec.mean
  rw [divf_apply, column_apply]
  refine congrArg (fun s => Ideal.div s Cert.Spec.c192) ?_
  exact laneSum_apply h _ _ _ _ p

theorem devs_apply (p : Fin 4096) (j : Fin 192) : devs h (ix2 p j) = Cert.Spec.dev (fun j => h (ix2 p j)) j := by
  unfold devs Cert.Spec.dev
  rw [subf_apply, columnBroadcast_apply _ _ (by decide), colMean_apply]

theorem colRsqrt_apply (p : Fin 4096) (u : Fin 1) :
    colRsqrt h (ix2 p u) = Ideal.rsqrt (Cert.Spec.var (fun j => h (ix2 p j)) + Cert.Spec.eps) := by
  unfold colRsqrt
  show Ideal.rsqrt (colMean (mulf (devs h) (devs h)) (ix2 p u) + Cert.Spec.eps) = _
  rw [colMean_apply]
  unfold Cert.Spec.var Cert.Spec.mean
  refine congrArg (fun s => Ideal.rsqrt (Ideal.div s Cert.Spec.c192 + Cert.Spec.eps)) ?_
  refine Finset.sum_congr rfl fun k _ => ?_
  show devs h (ix2 p k) * devs h (ix2 p k) = _
  rw [devs_apply]

end Norm

/-! ## The payloads as compositions of the above -/

/-- The program's first linear layer: the three blocks side by side, times `W₁`, plus the bias row. -/
def lin1 (x0 x1 x2 : Vec Ideal S4096x64 .f32) (x3 : Vec Ideal S192x192 .f32) (x4 : Vec Ideal S1x192 .f32) :
    FVec Ideal S4096x192 .f32 :=
  addf
    (matmul dot_S4096x192_S192x192_S4096x192_1_0_0_1_n_n none
      (concatenate S4096x192 1
        [⟨S4096x64, truncf .bf16 (shapeCast S4096x64 x0 shapeCasts_S4096x64_S4096x64) bitsLt_bf16_f32⟩,
         ⟨S4096x64, truncf .bf16 (shapeCast S4096x64 x1 shapeCasts_S4096x64_S4096x64) bitsLt_bf16_f32⟩,
         ⟨S4096x64, truncf (F := Ideal) .bf16 x2 bitsLt_bf16_f32⟩]
        concatenates_S4096x64_S4096x64_S4096x64_S4096x192_d1)
      (truncf .bf16 x3 bitsLt_bf16_f32) (constant (F := Ideal) S4096x192 .f32 0x00000000#32))
    (broadcastTo S4096x192 (shapeCast S1x192 x4 shapeCasts_S1x192_S1x192) broadcasts_S1x192_S4096x192)

theorem lin1_apply (x0 x1 x2 : Vec Ideal S4096x64 .f32) (x3 : Vec Ideal S192x192 .f32) (x4 : Vec Ideal S1x192 .f32)
    (p : Fin 4096) (j : Fin 192) :
    lin1 x0 x1 x2 x3 x4 (ix2 p j)
      = Cert.Spec.lin (Cert.Spec.cat3 (fun k => x0 (ix2 p k)) (fun k => x1 (ix2 p k)) (fun k => x2 (ix2 p k)))
          (fun k j => x3 (ix2 k j)) (fun j => x4 (ix2 0 j)) j := by
  unfold lin1 Cert.Spec.lin
  rw [addf_apply, rowBroadcast_apply, matmul1_apply]
  refine congrArg (fun s => s + x4 (ix2 (0 : Fin 1) j)) ?_
  refine Finset.sum_congr rfl fun k _ => ?_
  rw [shapeCast_self, shapeCast_self]
  exact congrArg (fun s => s * x3 (ix2 k j)) ((Cert.Lib.Cat3.concatenate3_apply _ _ _ _ p k).trans rfl)

/-- The second payload is the normalization of the first linear layer, scaled by the `γ` row. -/
theorem pay2_eq (x0 x1 x2 : Vec Ideal S4096x64 .f32) (x3 : Vec Ideal S192x192 .f32) (x4 x5 : Vec Ideal S1x192 .f32) :
    k0_pay2 (F := Ideal) x0 x1 x2 x3 x4 x5
      = mulf (mulf (devs (lin1 x0 x1 x2 x3 x4)) (broadcastTo S4096x192 (colRsqrt (lin1 x0 x1 x2 x3 x4)) broadcasts_S4096x1_S4096x192))
          (broadcastTo S4096x192 (shapeCast S1x192 x5 shapeCasts_S1x192_S1x192) broadcasts_S1x192_S4096x192) := rfl

theorem pay2_apply (x0 x1 x2 : Vec Ideal S4096x64 .f32) (x3 : Vec Ideal S192x192 .f32) (x4 x5 : Vec Ideal S1x192 .f32)
    (p : Fin 4096) (j : Fin 192) :
    k0_pay2 (F := Ideal) x0 x1 x2 x3 x4 x5 (ix2 p j)
      = Cert.Spec.dev (fun j => lin1 x0 x1 x2 x3 x4 (ix2 p j)) j
          * Ideal.rsqrt (Cert.Spec.var (fun j => lin1 x0 x1 x2 x3 x4 (ix2 p j)) + Cert.Spec.eps) * x5 (ix2 0 j) := by
  rw [pay2_eq, mulf_apply, mulf_apply, rowBroadcast_apply, columnBroadcast_apply _ _ (by decide), devs_apply, colRsqrt_apply]

/-- The first payload over any normalized array `n`, at `(p, q)`. -/
theorem pay1_apply (x2 : Vec Ideal S4096x64 .f32) (n : FVec Ideal S4096x192 .f32) (x6 : Vec Ideal S1x192 .f32)
    (x7 : Vec Ideal S192x64 .f32) (x8 : Vec Ideal S1x64 .f32) (p : Fin 4096) (q : Fin 64) :
    k0_pay1 (F := Ideal) x2 n x6 x7 x8 (ix2 p q)
      = (∑ j : Fin 192, max (n (ix2 p j) + x6 (ix2 0 j)) Cert.Spec.floor0 * x7 (ix2 j q)) + x8 (ix2 0 q) + x2 (ix2 p q) := by
  unfold k0_pay1
  rw [addf_apply, addf_apply, rowBroadcast_apply, matmul2_apply]
  refine congrArg (fun s => s + x8 (ix2 (0 : Fin 1) q) + x2 (ix2 p q)) ?_
  refine Finset.sum_congr rfl fun j _ => ?_
  rw [truncf_apply, truncf_apply, maximumf_apply, addf_apply, rowBroadcast_apply]
  rfl

/-- The stored block at `(p, q)` is the edge update of row `p` of the input blocks. -/
theorem pay_apply (x0 x1 x2 : Vec Ideal S4096x64 .f32) (x3 : Vec Ideal S192x192 .f32) (x4 x5 x6 : Vec Ideal S1x192 .f32)
    (x7 : Vec Ideal S192x64 .f32) (x8 : Vec Ideal S1x64 .f32) (p : Fin 4096) (q : Fin 64) :
    k0_pay1 (F := Ideal) x2 (k0_pay2 (F := Ideal) x0 x1 x2 x3 x4 x5) x6 x7 x8 (ix2 p q)
      = Cert.Spec.edgeOut
          (Cert.Spec.cat3 (fun k => x0 (ix2 p k)) (fun k => x1 (ix2 p k)) (fun k => x2 (ix2 p k)))
          (fun k => x2 (ix2 p k))
          (fun k j => x3 (ix2 k j)) (fun j => x4 (ix2 0 j)) (fun j => x5 (ix2 0 j)) (fun j => x6 (ix2 0 j))
          (fun j r => x7 (ix2 j r)) (fun r => x8 (ix2 0 r)) q := by
  have hrow : (fun j => lin1 x0 x1 x2 x3 x4 (ix2 p j))
      = Cert.Spec.lin (Cert.Spec.cat3 (fun k => x0 (ix2 p k)) (fun k => x1 (ix2 p k)) (fun k => x2 (ix2 p k)))
          (fun k j => x3 (ix2 k j)) (fun j => x4 (ix2 0 j)) :=
    funext fun j => lin1_apply x0 x1 x2 x3 x4 p j
  rw [pay1_apply]
  unfold Cert.Spec.edgeOut Cert.Spec.act
  refine congrArg (fun s => s + x8 (ix2 (0 : Fin 1) q) + x2 (ix2 p q)) ?_
  refine Finset.sum_congr rfl fun j _ => ?_
  rw [pay2_apply, hrow]

end Cert.KernelIdeal.Pay

end
-- ==== Proof.Final.lean ====
/-
  The result array after the run, as one function of the arrays the region finds (at the extended reals).

  Grid point `t` writes back the rows `4096·t …` of the result that lie inside the array (all 4096 for `t < 195`, the first
  1280 at `t = 195`). What it writes at row `4096·t + p`, lane `q`, is the edge update of row `p` of the three input blocks it
  staged, which are rows `4096·t + p` of the two gathered node arrays and of the edge features; the parameter blocks are the
  whole parameter arrays. So every point writes its block of ONE whole-array function (`Gof`), the 196 blocks cover the
  800000 rows, and the array ends holding that function.
-/
import proofs.«140711_j4784593568415_1_alg».proof.Proof.Data
import proofs.«140711_j4784593568415_1_alg».proof.Proof.PayIdeal
import Idealize.ShloMosaic.Lib.Pipeline.Value

set_option maxRecDepth 16384

noncomputable section

namespace Cert.KernelIdeal.Final

open Cert.KernelIdeal Cert.KernelIdeal.Gen Cert.KernelIdeal.Data
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The edge update of every row: the whole result from the two gathered node arrays, the edge features, and the
    parameters (the four vectors as the one-row arrays the kernel is handed). -/
def Gof (NR NC EF : S800000x64.Idx → EReal) (W1 : S192x192.Idx → EReal) (B1 GA BE : S1x192.Idx → EReal)
    (W2 : S192x64.Idx → EReal) (B2 : S1x64.Idx → EReal) : S800000x64.Idx → EReal := fun i =>
  Cert.Spec.edgeOut
    (Cert.Spec.cat3 (fun k => NR (ix2 (⟨(i 0).val, (i 0).isLt⟩ : Fin 800000) k)) (fun k => NC (ix2 (⟨(i 0).val, (i 0).isLt⟩ : Fin 800000) k))
      (fun k => EF (ix2 (⟨(i 0).val, (i 0).isLt⟩ : Fin 800000) k)))
    (fun k => EF (ix2 (⟨(i 0).val, (i 0).isLt⟩ : Fin 800000) k))
    (fun k j => W1 (ix2 k j)) (fun j => B1 (ix2 0 j)) (fun j => GA (ix2 0 j)) (fun j => BE (ix2 0 j))
    (fun j r => W2 (ix2 j r)) (fun r => B2 (ix2 0 r)) (⟨(i 1).val, (i 1).isLt⟩ : Fin 64)

/-! ## The schedule -/

/-- The schedule of the four row-block windows, decided over the grid: block index (t, 0), all 64 lanes, and 4096 rows
    but at the last point, whose block is cut to the 1280 rows inside the array. -/
theorem sched9 : ∀ t : Fin cfg0.N, win0_9.index t 0 = t.val ∧ win0_9.index t 1 = 0
    ∧ win0_9.xsize (grid0.coords t) 1 = 64 ∧ win0_9.xsize (grid0.coords t) 0 = (if t.val = 195 then 1280 else 4096) :=
  (by decide +kernel : ∀ t : Fin grid0.N, win0_9.index t 0 = t.val ∧ win0_9.index t 1 = 0
    ∧ win0_9.xsize (grid0.coords t) 1 = 64 ∧ win0_9.xsize (grid0.coords t) 0 = (if t.val = 195 then 1280 else 4096))

theorem sched0 : ∀ t : Fin cfg0.N, win0_0.index t 0 = t.val ∧ win0_0.index t 1 = 0
    ∧ win0_0.xsize (grid0.coords t) 1 = 64 ∧ win0_0.xsize (grid0.coords t) 0 = (if t.val = 195 then 1280 else 4096) :=
  (by decide +kernel : ∀ t : Fin grid0.N, win0_0.index t 0 = t.val ∧ win0_0.index t 1 = 0
    ∧ win0_0.xsize (grid0.coords t) 1 = 64 ∧ win0_0.xsize (grid0.coords t) 0 = (if t.val = 195 then 1280 else 4096))

theorem sched1 : ∀ t : Fin cfg0.N, win0_1.index t 0 = t.val ∧ win0_1.index t 1 = 0
    ∧ win0_1.xsize (grid0.coords t) 1 = 64 ∧ win0_1.xsize (grid0.coords t) 0 = (if t.val = 195 then 1280 else 4096) :=
  (by decide +kernel : ∀ t : Fin grid0.N, win0_1.index t 0 = t.val ∧ win0_1.index t 1 = 0
    ∧ win0_1.xsize (grid0.coords t) 1 = 64 ∧ win0_1.xsize (grid0.coords t) 0 = (if t.val = 195 then 1280 else 4096))

theorem sched2 : ∀ t : Fin cfg0.N, win0_2.index t 0 = t.val ∧ win0_2.index t 1 = 0
    ∧ win0_2.xsize (grid0.coords t) 1 = 64 ∧ win0_2.xsize (grid0.coords t) 0 = (if t.val = 195 then 1280 else 4096) :=
  (by decide +kernel : ∀ t : Fin grid0.N, win0_2.index t 0 = t.val ∧ win0_2.index t 1 = 0
    ∧ win0_2.xsize (grid0.coords t) 1 = 64 ∧ win0_2.xsize (grid0.coords t) 0 = (if t.val = 195 then 1280 else 4096))

/-- The six parameter windows sit at block index (0, 0) at every point. -/
theorem schedP : ∀ t : Fin cfg0.N, (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) :=
  (by decide +kernel : ∀ t : Fin grid0.N, (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0))

theorem N196 : cfg0.N = 196 := by decide +kernel

/-! ## A staged block is its rows of the array -/

theorem blkZ0_apply (c : Dev nD) (t : Fin cfg0.N) (p : Fin 4096) (k : Fin 64)
    (hp : p.val < (if t.val = 195 then 1280 else 4096)) (r : Fin 800000) (hr : r.val = 4096 * t.val + p.val) :
    blkZ0 m c t (ix2 p k) = (V m c main_v10 : S800000x64.Idx → EReal) (ix2 r k) := by
  obtain ⟨e0, e1, e2, e3⟩ := sched0 t
  have hmv : win0_0.moved (grid0.coords t) (ix2 p k) = true := by
    rw [Window.moved_iff]
    intro a
    match a with
    | ⟨0, _⟩ => show p.val < win0_0.xsize (grid0.coords t) 0; rw [e3]; exact hp
    | ⟨1, _⟩ => show k.val < win0_0.xsize (grid0.coords t) 1; rw [e2]; exact k.isLt
  unfold blkZ0 Window.fill
  rw [dif_pos hmv]
  unfold iblk
  rw [View.read_apply]
  show (V m c main_v10 : S800000x64.Idx → EReal) _ = _
  refine congrArg (V m c main_v10 : S800000x64.Idx → EReal) ?_
  funext a
  apply Fin.ext
  match a with
  | ⟨0, _⟩ => show win0_0.index t 0 * 4096 + 1 * p.val = r.val; rw [e0, hr]; omega
  | ⟨1, _⟩ => show win0_0.index t 1 * 64 + 1 * k.val = k.val; rw [e1]; omega

theorem blkZ1_apply (c : Dev nD) (t : Fin cfg0.N) (p : Fin 4096) (k : Fin 64)
    (hp : p.val < (if t.val = 195 then 1280 else 4096)) (r : Fin 800000) (hr : r.val = 4096 * t.val + p.val) :
    blkZ1 m c t (ix2 p k) = (V m c main_v17 : S800000x64.Idx → EReal) (ix2 r k) := by
  obtain ⟨e0, e1, e2, e3⟩ := sched1 t
  have hmv : win0_1.moved (grid0.coords t) (ix2 p k) = true := by
    rw [Window.moved_iff]
    intro a
    match a with
    | ⟨0, _⟩ => show p.val < win0_1.xsize (grid0.coords t) 0; rw [e3]; exact hp
    | ⟨1, _⟩ => show k.val < win0_1.xsize (grid0.coords t) 1; rw [e2]; exact k.isLt
  unfold blkZ1 Window.fill
  rw [dif_pos hmv]
  unfold iblk
  rw [View.read_apply]
  show (V m c main_v17 : S800000x64.Idx → EReal) _ = _
  refine congrArg (V m c main_v17 : S800000x64.Idx → EReal) ?_
  funext a
  apply Fin.ext
  match a with
  | ⟨0, _⟩ => show win0_1.index t 0 * 4096 + 1 * p.val = r.val; rw [e0, hr]; omega
  | ⟨1, _⟩ => show win0_1.index t 1 * 64 + 1 * k.val = k.val; rw [e1]; omega

theorem blkZ2_apply (c : Dev nD) (t : Fin cfg0.N) (p : Fin 4096) (k : Fin 64)
    (hp : p.val < (if t.val = 195 then 1280 else 4096)) (r : Fin 800000) (hr : r.val = 4096 * t.val + p.val) :
    blkZ2 m c t (ix2 p k) = (V m c main_arg1 : S800000x64.Idx → EReal) (ix2 r k) := by
  obtain ⟨e0, e1, e2, e3⟩ := sched2 t
  have hmv : win0_2.moved (grid0.coords t) (ix2 p k) = true := by
    rw [Window.moved_iff]
    intro a
    match a with
    | ⟨0, _⟩ => show p.val < win0_2.xsize (grid0.coords t) 0; rw [e3]; exact hp
    | ⟨1, _⟩ => show k.val < win0_2.xsize (grid0.coords t) 1; rw [e2]; exact k.isLt
  unfold blkZ2 Window.fill
  rw [dif_pos hmv]
  unfold iblk
  rw [View.read_apply]
  show (V m c main_arg1 : S800000x64.Idx → EReal) _ = _
  refine congrArg (V m c main_arg1 : S800000x64.Idx → EReal) ?_
  funext a
  apply Fin.ext
  match a with
  | ⟨0, _⟩ => show win0_2.index t 0 * 4096 + 1 * p.val = r.val; rw [e0, hr]; omega
  | ⟨1, _⟩ => show win0_2.index t 1 * 64 + 1 * k.val = k.val; rw [e1]; omega

theorem iblk3_apply (c : Dev nD) (t : Fin cfg0.N) (a : Fin 192) (b : Fin 192) :
    (iblk m c 3 t : Vec Ideal S192x192 .f32) (ix2 a b) = (V m c main_arg3 : S192x192.Idx → EReal) (ix2 a b) := by
  obtain ⟨⟨e0, e1⟩, -⟩ := schedP t
  unfold iblk
  rw [View.read_apply]
  show (V m c main_arg3 : S192x192.Idx → EReal) _ = _
  refine congrArg (V m c main_arg3 : S192x192.Idx → EReal) ?_
  funext d
  apply Fin.ext
  match d with
  | ⟨0, _⟩ => show win0_3.index t 0 * 192 + 1 * a.val = a.val; rw [e0]; omega
  | ⟨1, _⟩ => show win0_3.index t 1 * 192 + 1 * b.val = b.val; rw [e1]; omega

theorem iblk4_apply (c : Dev nD) (t : Fin cfg0.N) (a : Fin 1) (b : Fin 192) :
    (iblk m c 4 t : Vec Ideal S1x192 .f32) (ix2 a b) = (V m c main_v18 : S1x192.Idx → EReal) (ix2 a b) := by
  obtain ⟨-, ⟨e0, e1⟩, -⟩ := schedP t
  unfold iblk
  rw [View.read_apply]
  show (V m c main_v18 : S1x192.Idx → EReal) _ = _
  refine congrArg (V m c main_v18 : S1x192.Idx → EReal) ?_
  funext d
  apply Fin.ext
  match d with
  | ⟨0, _⟩ => show win0_4.index t 0 * 1 + 1 * a.val = a.val; rw [e0]; omega
  | ⟨1, _⟩ => show win0_4.index t 1 * 192 + 1 * b.val = b.val; rw [e1]; omega

theorem iblk5_apply (c : Dev nD) (t : Fin cfg0.N) (a : Fin 1) (b : Fin 192) :
    (iblk m c 5 t : Vec Ideal S1x192 .f32) (ix2 a b) = (V m c main_v19 : S1x192.Idx → EReal) (ix2 a b) := by
  obtain ⟨-, -, ⟨e0, e1⟩, -⟩ := schedP t
  unfold iblk
  rw [View.read_apply]
  show (V m c main_v19 : S1x192.Idx → EReal) _ = _
  refine congrArg (V m c main_v19 : S1x192.Idx → EReal) ?_
  funext d
  apply Fin.ext
  match d with
  | ⟨0, _⟩ => show win0_5.index t 0 * 1 + 1 * a.val = a.val; rw [e0]; omega
  | ⟨1, _⟩ => show win0_5.index t 1 * 192 + 1 * b.val = b.val; rw [e1]; omega

theorem iblk6_apply (c : Dev nD) (t : Fin cfg0.N) (a : Fin 1) (b : Fin 192) :
    (iblk m c 6 t : Vec Ideal S1x192 .f32) (ix2 a b) = (V m c main_v20 : S1x192.Idx → EReal) (ix2 a b) := by
  obtain ⟨-, -, -, ⟨e0, e1⟩, -⟩ := schedP t
  unfold iblk
  rw [View.read_apply]
  show (V m c main_v20 : S1x192.Idx → EReal) _ = _
  refine congrArg (V m c main_v20 : S1x192.Idx → EReal) ?_
  funext d
  apply Fin.ext
  match d with
  | ⟨0, _⟩ => show win0_6.index t 0 * 1 + 1 * a.val = a.val; rw [e0]; omega
  | ⟨1, _⟩ => show win0_6.index t 1 * 192 + 1 * b.val = b.val; rw [e1]; omega

theorem iblk7_apply (c : Dev nD) (t : Fin cfg0.N) (a : Fin 192) (b : Fin 64) :
    (iblk m c 7 t : Vec Ideal S192x64 .f32) (ix2 a b) = (V m c main_arg7 : S192x64.Idx → EReal) (ix2 a b) := by
  obtain ⟨-, -, -, -, ⟨e0, e1⟩, -⟩ := schedP t
  unfold iblk
  rw [View.read_apply]
  show (V m c main_arg7 : S192x64.Idx → EReal) _ = _
  refine congrArg (V m c main_arg7 : S192x64.Idx → EReal) ?_
  funext d
  apply Fin.ext
  match d with
  | ⟨0, _⟩ => show win0_7.index t 0 * 192 + 1 * a.val = a.val; rw [e0]; omega
  | ⟨1, _⟩ => show win0_7.index t 1 * 64 + 1 * b.val = b.val; rw [e1]; omega

theorem iblk8_apply (c : Dev nD) (t : Fin cfg0.N) (a : Fin 1) (b : Fin 64) :
    (iblk m c 8 t : Vec Ideal S1x64 .f32) (ix2 a b) = (V m c main_v21 : S1x64.Idx → EReal) (ix2 a b) := by
  obtain ⟨-, -, -, -, -, ⟨e0, e1⟩⟩ := schedP t
  unfold iblk
  rw [View.read_apply]
  show (V m c main_v21 : S1x64.Idx → EReal) _ = _
  refine congrArg (V m c main_v21 : S1x64.Idx → EReal) ?_
  funext d
  apply Fin.ext
  match d with
  | ⟨0, _⟩ => show win0_8.index t 0 * 1 + 1 * a.val = a.val; rw [e0]; omega
  | ⟨1, _⟩ => show win0_8.index t 1 * 64 + 1 * b.val = b.val; rw [e1]; omega

/-! ## Every point writes its block of the one function -/

/-- The whole-array function at an index whose coordinates are known. -/
theorem Gof_apply_of (NR NC EF : S800000x64.Idx → EReal) (W1 : S192x192.Idx → EReal) (B1 GA BE : S1x192.Idx → EReal)
    (W2 : S192x64.Idx → EReal) (B2 : S1x64.Idx → EReal) (i : S800000x64.Idx) (r : Fin 800000) (q : Fin 64)
    (hr : (i 0).val = r.val) (hq : (i 1).val = q.val) :
    Gof NR NC EF W1 B1 GA BE W2 B2 i
      = Cert.Spec.edgeOut
          (Cert.Spec.cat3 (fun k => NR (ix2 r k)) (fun k => NC (ix2 r k)) (fun k => EF (ix2 r k)))
          (fun k => EF (ix2 r k))
          (fun k j => W1 (ix2 k j)) (fun j => B1 (ix2 0 j)) (fun j => GA (ix2 0 j)) (fun j => BE (ix2 0 j))
          (fun j r => W2 (ix2 j r)) (fun r => B2 (ix2 0 r)) q := by
  obtain ⟨rv, hrv⟩ := r
  obtain ⟨qv, hqv⟩ := q
  simp only at hr hq
  subst hr hq
  rfl

/-- The edge update depends on its arguments only. -/
theorem edgeOut_congr {a a' b b' e e' : Fin 64 → EReal} {W1 W1' : Fin 192 → Fin 192 → EReal} {b1 b1' g g' be be' : Fin 192 → EReal}
    {W2 W2' : Fin 192 → Fin 64 → EReal} {b2 b2' : Fin 64 → EReal} (q : Fin 64)
    (ha : a = a') (hb : b = b') (he : e = e') (hW1 : W1 = W1') (hb1 : b1 = b1') (hg : g = g') (hbe : be = be')
    (hW2 : W2 = W2') (hb2 : b2 = b2') :
    Cert.Spec.edgeOut (Cert.Spec.cat3 a b e) e W1 b1 g be W2 b2 q = Cert.Spec.edgeOut (Cert.Spec.cat3 a' b' e') e' W1' b1' g' be' W2' b2' q := by
  subst ha hb he hW1 hb1 hg hbe hW2 hb2; rfl

/-- What point `t` writes back is its block of `Gof` of the arrays the region finds. -/
theorem flushed_eq (c : Dev nD) (t : Fin cfg0.N) :
    (dats (F := Ideal) m 0 c).flushed 9 t
      = ((cfg0.win 9).blk t).view.read (Elt Ideal)
          (Gof (V m c main_v10) (V m c main_v17) (V m c main_arg1) (V m c main_arg3) (V m c main_v18) (V m c main_v19) (V m c main_v20)
            (V m c main_arg7) (V m c main_v21)) := by
  obtain ⟨e0, e1, e2, e3⟩ := sched9 t
  have ht : t.val < 196 := Nat.lt_of_lt_of_eq t.isLt N196
  show (cfg0.win 9).cut (grid0.coords t) ((dats m 0 c).after 9 t) = _
  rw [after0_9]
  funext j
  rw [View.read_apply]
  have hj0 : (j 0).val < win0_9.xsize (grid0.coords t) 0 := (j 0).isLt
  have hj1 : (j 1).val < win0_9.xsize (grid0.coords t) 1 := (j 1).isLt
  rw [e3] at hj0
  rw [e2] at hj1
  have hp4 : (j 0).val < 4096 := by split at hj0 <;> omega
  have hr8 : 4096 * t.val + (j 0).val < 800000 := by split at hj0 <;> omega
  have hx : win0_9.xinj (grid0.coords t) j = ix2 (⟨(j 0).val, hp4⟩ : Fin 4096) (⟨(j 1).val, hj1⟩ : Fin 64) :=
    funext fun a => Fin.ext (by match a with | ⟨0, _⟩ => rfl | ⟨1, _⟩ => rfl)
  show outOf (blkZ0 m c t) (blkZ1 m c t) (blkZ2 m c t) (iblk m c 3 t) (iblk m c 4 t) (iblk m c 5 t) (iblk m c 6 t) (iblk m c 7 t) (iblk m c 8 t)
      (win0_9.xinj (grid0.coords t) j) = _
  rw [hx]
  unfold outOf
  refine (Pay.pay_apply (blkZ0 m c t) (blkZ1 m c t) (blkZ2 m c t) (iblk m c 3 t) (iblk m c 4 t) (iblk m c 5 t) (iblk m c 6 t) (iblk m c 7 t) (iblk m c 8 t)
    ⟨(j 0).val, hp4⟩ ⟨(j 1).val, hj1⟩).trans ?_
  show _ = Gof (V m c main_v10) (V m c main_v17) (V m c main_arg1) (V m c main_arg3) (V m c main_v18) (V m c main_v19) (V m c main_v20)
      (V m c main_arg7) (V m c main_v21) (((cfg0.win 9).blk t).view.emb j)
  rw [Gof_apply_of _ _ _ _ _ _ _ _ _ _ (⟨4096 * t.val + (j 0).val, hr8⟩ : Fin 800000) (⟨(j 1).val, hj1⟩ : Fin 64)
    (by show win0_9.index t 0 * 4096 + 1 * (j 0).val = 4096 * t.val + (j 0).val; rw [e0]; omega)
    (by show win0_9.index t 1 * 64 + 1 * (j 1).val = (j 1).val; rw [e1]; omega)]
  exact edgeOut_congr _
    (funext fun k => blkZ0_apply m c t _ k hj0 _ rfl)
    (funext fun k => blkZ1_apply m c t _ k hj0 _ rfl)
    (funext fun k => blkZ2_apply m c t _ k hj0 _ rfl)
    (funext fun k => funext fun l => iblk3_apply m c t k l)
    (funext fun l => iblk4_apply m c t 0 l)
    (funext fun l => iblk5_apply m c t 0 l)
    (funext fun l => iblk6_apply m c t 0 l)
    (funext fun k => funext fun l => iblk7_apply m c t k l)
    (funext fun l => iblk8_apply m c t 0 l)

/-! ## The blocks cover the array -/

/-- Row `r` of the result lies in the block of point `r / 4096`, which is written back. -/
theorem cover (i : S800000x64.Idx) :
    ∃ t : Fin cfg0.N, (cfg0.win 9).flush t = true ∧ i ∈ ((cfg0.win 9).blk t).view.set := by
  have hi0 : (i 0).val < 800000 := (i 0).isLt
  have hi1 : (i 1).val < 64 := (i 1).isLt
  have hlt : (i 0).val / 4096 < cfg0.N := by rw [N196]; omega
  obtain ⟨e0, e1, e2, e3⟩ := sched9 ⟨(i 0).val / 4096, hlt⟩
  refine ⟨⟨(i 0).val / 4096, hlt⟩, flush0_9 _, ?_⟩
  show i ∈ ((View.whole main_v22).slice (win0_9.rect ⟨(i 0).val / 4096, hlt⟩)).set
  rw [View.set_slice_whole, Rect.mem_set_unit]
  intro a
  match a with
  | ⟨0, _⟩ =>
    show win0_9.index ⟨(i 0).val / 4096, hlt⟩ 0 * 4096 ≤ (i 0).val
      ∧ (i 0).val < win0_9.index ⟨(i 0).val / 4096, hlt⟩ 0 * 4096 + win0_9.xsize (grid0.coords ⟨(i 0).val / 4096, hlt⟩) 0
    rw [e0, e3]
    show (i 0).val / 4096 * 4096 ≤ (i 0).val ∧ (i 0).val < (i 0).val / 4096 * 4096 + (if (i 0).val / 4096 = 195 then 1280 else 4096)
    split <;> omega
  | ⟨1, _⟩ =>
    show win0_9.index ⟨(i 0).val / 4096, hlt⟩ 1 * 64 ≤ (i 1).val
      ∧ (i 1).val < win0_9.index ⟨(i 0).val / 4096, hlt⟩ 1 * 64 + win0_9.xsize (grid0.coords ⟨(i 0).val / 4096, hlt⟩) 1
    rw [e1, e2]
    omega

/-- The result array after every write-back is `Gof` of the arrays as the region finds them. -/
theorem final9 (c : Dev nD) :
    (dats (F := Ideal) m 0 c).arrAt 9 cfg0.N
      = Gof (V m c main_v10) (V m c main_v17) (V m c main_arg1) (V m c main_arg3) (V m c main_v18) (V m c main_v19) (V m c main_v20)
          (V m c main_arg7) (V m c main_v21) :=
  (dats (F := Ideal) m 0 c).arrAt_eq_of_cover 9 _ (fun t _ => flushed_eq m c t) cover

end Cert.KernelIdeal.Final

end
-- ==== Proof.ValueIdeal.lean ====
/-
  The kernel's run at the extended reals, with the result named.

  At the extended reals every entry of the body's result block depends on ONE row of the three row-block inputs. On the
  rows a cut transfer moves, a staging buffer holds the array's rows whatever else it held; so on those rows the result is
  the same whether the rest of the input buffers holds the zero word or anything (`out_cut`). That is what the body
  obligation of a window stated on its moved part asks. The run then ends with the result array at the write-backs of the
  proof data, which is the edge update of every row (`Final.final9`), and the nine arguments as launched.
-/
import proofs.«140711_j4784593568415_1_alg».proof.Proof.Data
import proofs.«140711_j4784593568415_1_alg».proof.Proof.Body
import proofs.«140711_j4784593568415_1_alg».proof.Proof.PayIdeal
import proofs.«140711_j4784593568415_1_alg».proof.Proof.Final

set_option maxRecDepth 16384

noncomputable section

namespace Cert.KernelIdeal.ValueI

open Cert.KernelIdeal Cert.KernelIdeal.Gen Cert.KernelIdeal.Data
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The cuts, decided once over the grid -/

/-- The three row-block inputs are cut exactly as the result is, and no window is cut along the lanes. -/
theorem cuts (t : Fin cfg0.N) :
    (∀ a : Fin 2, win0_0.xsize (grid0.coords t) a = win0_9.xsize (grid0.coords t) a)
    ∧ (∀ a : Fin 2, win0_1.xsize (grid0.coords t) a = win0_9.xsize (grid0.coords t) a)
    ∧ (∀ a : Fin 2, win0_2.xsize (grid0.coords t) a = win0_9.xsize (grid0.coords t) a)
    ∧ win0_9.xsize (grid0.coords t) 1 = 64 :=
  (by decide +kernel : ∀ t : Fin grid0.N,
    (∀ a : Fin 2, win0_0.xsize (grid0.coords t) a = win0_9.xsize (grid0.coords t) a)
    ∧ (∀ a : Fin 2, win0_1.xsize (grid0.coords t) a = win0_9.xsize (grid0.coords t) a)
    ∧ (∀ a : Fin 2, win0_2.xsize (grid0.coords t) a = win0_9.xsize (grid0.coords t) a)
    ∧ win0_9.xsize (grid0.coords t) 1 = 64) t

/-! ## Contents that agree where a transfer moves them -/

/-- Two contents that agree on the part the transfer moves have the same moved part. -/
theorem cut_congr_of_moved {α : Type} (w : Window sig grid0) (i : grid0.Coords) (X Y : w.block.Idx → α)
    (h : ∀ j, w.moved i j = true → X j = Y j) : w.cut i X = w.cut i Y :=
  funext fun j => h _ (w.moved_xinj i j)

/-- On the part the transfer moves, a filled buffer holds the block, whatever it held before. -/
theorem fill_eq_of_moved {α : Type} (w : Window sig grid0) (i : grid0.Coords) (d d' : w.block.Idx → α) (g : (w.xblock i).Idx → α)
    (j : w.block.Idx) (hj : w.moved i j = true) : w.fill i d g j = w.fill i d' g j := by
  unfold Window.fill; rw [dif_pos hj, dif_pos hj]

/-! ## The result on the rows inside the array does not see the rest of the input buffers -/

theorem out_cut (c : Dev nD) (t : Fin cfg0.N) (d0 d1 d2 : S4096x64.Idx → EReal) :
    win0_9.cut (grid0.coords t)
        (outOf (F := Ideal) (win0_0.fill (grid0.coords t) d0 (iblk m c 0 t)) (win0_1.fill (grid0.coords t) d1 (iblk m c 1 t))
          (win0_2.fill (grid0.coords t) d2 (iblk m c 2 t)) (iblk m c 3 t) (iblk m c 4 t) (iblk m c 5 t) (iblk m c 6 t) (iblk m c 7 t) (iblk m c 8 t))
      = win0_9.cut (grid0.coords t)
        (outOf (F := Ideal) (blkZ0 m c t) (blkZ1 m c t) (blkZ2 m c t) (iblk m c 3 t) (iblk m c 4 t) (iblk m c 5 t) (iblk m c 6 t) (iblk m c 7 t) (iblk m c 8 t)) := by
  unfold blkZ0 blkZ1 blkZ2
  refine cut_congr_of_moved win0_9 _ _ _ fun j hj => ?_
  have hj' := (win0_9.moved_iff _ j).mp hj
  obtain ⟨c0, c1, c2, c91⟩ := cuts t
  have hp : (j 0).val < 4096 := (j 0).isLt
  have hq : (j 1).val < 64 := (j 1).isLt
  have ej : j = ix2 (⟨(j 0).val, hp⟩ : Fin 4096) (⟨(j 1).val, hq⟩ : Fin 64) :=
    funext fun a => Fin.ext (by match a with | ⟨0, _⟩ => rfl | ⟨1, _⟩ => rfl)
  generalize (⟨(j 0).val, hp⟩ : Fin 4096) = p at ej
  generalize (⟨(j 1).val, hq⟩ : Fin 64) = q at ej
  subst ej
  have mv0 : ∀ k : Fin 64, win0_0.moved (grid0.coords t) (ix2 p k) = true := fun k =>
    (win0_0.moved_iff _ _).mpr fun a => by
      match a with
      | ⟨0, _⟩ => exact lt_of_lt_of_eq (hj' ⟨0, by decide⟩) (c0 ⟨0, by decide⟩).symm
      | ⟨1, _⟩ => exact lt_of_lt_of_eq k.isLt ((c0 ⟨1, by decide⟩).trans c91).symm
  have mv1 : ∀ k : Fin 64, win0_1.moved (grid0.coords t) (ix2 p k) = true := fun k =>
    (win0_1.moved_iff _ _).mpr fun a => by
      match a with
      | ⟨0, _⟩ => exact lt_of_lt_of_eq (hj' ⟨0, by decide⟩) (c1 ⟨0, by decide⟩).symm
      | ⟨1, _⟩ => exact lt_of_lt_of_eq k.isLt ((c1 ⟨1, by decide⟩).trans c91).symm
  have mv2 : ∀ k : Fin 64, win0_2.moved (grid0.coords t) (ix2 p k) = true := fun k =>
    (win0_2.moved_iff _ _).mpr fun a => by
      match a with
      | ⟨0, _⟩ => exact lt_of_lt_of_eq (hj' ⟨0, by decide⟩) (c2 ⟨0, by decide⟩).symm
      | ⟨1, _⟩ => exact lt_of_lt_of_eq k.isLt ((c2 ⟨1, by decide⟩).trans c91).symm
  have r0 : (fun k : Fin 64 => win0_0.fill (grid0.coords t) d0 (iblk m c 0 t) (ix2 p k)) = fun k => win0_0.fill (grid0.coords t) (zfill (F := Ideal)) (iblk m c 0 t) (ix2 p k) :=
    funext fun k => fill_eq_of_moved win0_0 _ d0 (zfill (F := Ideal)) _ _ (mv0 k)
  have r1 : (fun k : Fin 64 => win0_1.fill (grid0.coords t) d1 (iblk m c 1 t) (ix2 p k)) = fun k => win0_1.fill (grid0.coords t) (zfill (F := Ideal)) (iblk m c 1 t) (ix2 p k) :=
    funext fun k => fill_eq_of_moved win0_1 _ d1 (zfill (F := Ideal)) _ _ (mv1 k)
  have r2 : (fun k : Fin 64 => win0_2.fill (grid0.coords t) d2 (iblk m c 2 t) (ix2 p k)) = fun k => win0_2.fill (grid0.coords t) (zfill (F := Ideal)) (iblk m c 2 t) (ix2 p k) :=
    funext fun k => fill_eq_of_moved win0_2 _ d2 (zfill (F := Ideal)) _ _ (mv2 k)
  refine (Cert.KernelIdeal.Pay.pay_apply _ _ _ _ _ _ _ _ _ p q).trans ?_
  refine Eq.trans ?_ (Cert.KernelIdeal.Pay.pay_apply _ _ _ _ _ _ _ _ _ p q).symm
  rw [r0, r1, r2]

/-! ## The body obligation, every window named -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare ((cfg0.win 9).fill (cfg0.grid.coords t) d ((cfg0.win 9).cut (cfg0.grid.coords t) ((dats m 0 c).after 9 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (Cert.KernelIdeal.Body.sound_kernel c Set.univ (grid0.coords t) _ _ _ _ _ _ _ _ _ _ _ _ _ _ _ _ _ _ _ _
    (win0_0.fill (grid0.coords t) d0 (iblk m c 0 t)) (win0_1.fill (grid0.coords t) d1 (iblk m c 1 t)) (win0_2.fill (grid0.coords t) d2 (iblk m c 2 t))
    (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  have h0 : win0_0.cut (grid0.coords t) (blkZ0 m c t) = iblk m c 0 t := win0_0.cut_fill _ _ _
  have h1 : win0_1.cut (grid0.coords t) (blkZ1 m c t) = iblk m c 1 t := win0_1.cut_fill _ _ _
  have h2 : win0_2.cut (grid0.coords t) (blkZ2 m c t) = iblk m c 2 t := win0_2.cut_fill _ _ _
  isplitl [H0]
  · iexists d0
    change _ ⊢ owns (c : Thread nD τ) (st0_0 t) fullShare (win0_0.fill (grid0.coords t) d0 (win0_0.cut (grid0.coords t) (blkZ0 m c t)))
    rw [h0]
  isplitl [H1]
  · iexists d1
    change _ ⊢ owns (c : Thread nD τ) (st0_1 t) fullShare (win0_1.fill (grid0.coords t) d1 (win0_1.cut (grid0.coords t) (blkZ1 m c t)))
    rw [h1]
  isplitl [H2]
  · iexists d2
    change _ ⊢ owns (c : Thread nD τ) (st0_2 t) fullShare (win0_2.fill (grid0.coords t) d2 (win0_2.cut (grid0.coords t) (blkZ2 m c t)))
    rw [h2]
  isplitl [H3]; · iexact H3
  isplitl [H4]; · iexact H4
  isplitl [H5]; · iexact H5
  isplitl [H6]; · iexact H6
  isplitl [H7]; · iexact H7
  isplitl [H8]; · iexact H8
  -- the result's buffer: on the rows the write-back moves, the result of the zero-filled blocks
  have e9 : (cfg0.win 9).fill (cfg0.grid.coords t)
        (Cert.KernelIdeal.Body.outBlk (F := Ideal) (win0_0.fill (grid0.coords t) d0 (iblk m c 0 t)) (win0_1.fill (grid0.coords t) d1 (iblk m c 1 t))
          (win0_2.fill (grid0.coords t) d2 (iblk m c 2 t)) (iblk m c 3 t) (iblk m c 4 t) (iblk m c 5 t) (iblk m c 6 t) (iblk m c 7 t) (iblk m c 8 t))
        ((cfg0.win 9).cut (cfg0.grid.coords t)
          (outOf (F := Ideal) (blkZ0 m c t) (blkZ1 m c t) (blkZ2 m c t) (iblk m c 3 t) (iblk m c 4 t) (iblk m c 5 t) (iblk m c 6 t) (iblk m c 7 t) (iblk m c 8 t)))
      = Cert.KernelIdeal.Body.outBlk (F := Ideal) (win0_0.fill (grid0.coords t) d0 (iblk m c 0 t)) (win0_1.fill (grid0.coords t) d1 (iblk m c 1 t))
          (win0_2.fill (grid0.coords t) d2 (iblk m c 2 t)) (iblk m c 3 t) (iblk m c 4 t) (iblk m c 5 t) (iblk m c 6 t) (iblk m c 7 t) (iblk m c 8 t) := by
    show win0_9.fill (grid0.coords t)
        (outOf (F := Ideal) (win0_0.fill (grid0.coords t) d0 (iblk m c 0 t)) (win0_1.fill (grid0.coords t) d1 (iblk m c 1 t))
          (win0_2.fill (grid0.coords t) d2 (iblk m c 2 t)) (iblk m c 3 t) (iblk m c 4 t) (iblk m c 5 t) (iblk m c 6 t) (iblk m c 7 t) (iblk m c 8 t))
        (win0_9.cut (grid0.coords t)
          (outOf (F := Ideal) (blkZ0 m c t) (blkZ1 m c t) (blkZ2 m c t) (iblk m c 3 t) (iblk m c 4 t) (iblk m c 5 t) (iblk m c 6 t) (iblk m c 7 t) (iblk m c 8 t)))
      = outOf (F := Ideal) (win0_0.fill (grid0.coords t) d0 (iblk m c 0 t)) (win0_1.fill (grid0.coords t) d1 (iblk m c 1 t))
          (win0_2.fill (grid0.coords t) d2 (iblk m c 2 t)) (iblk m c 3 t) (iblk m c 4 t) (iblk m c 5 t) (iblk m c 6 t) (iblk m c 7 t) (iblk m c 8 t)
    rw [← out_cut m c t d0 d1 d2, win0_9.fill_cut]
  iexists _
  rw [e9]
  try iexact H9

theorem body_obligation (c : Dev nD) : BodyObligationLoose (dats (F := Ideal) m 0 c) (defs₀ (F := Ideal)) Variants.none () Set.univ := fun t => by
  rw [bigSep_W0, bigSep_W0]
  exact sound_body m c t

/-! ## The run -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- Every weakly fair execution of the kernel's @main terminates with the result array at the edge update of every row
    of the arrays the region finds, and the nine argument arrays as launched (a staged input is never written back; the
    others no window stages). -/
theorem run_value : θ_run defs (onTc (τ := τ) (main (F := Ideal))) ⟨m, fun _ => 0, ρ⟩ (fun r => ∀ c : Dev nD,
      r.2.mem ((c.tc : Thread nD τ).loc main_v22)
        = Cert.KernelIdeal.Final.Gof (V m c main_v10) (V m c main_v17) (V m c main_arg1) (V m c main_arg3) (V m c main_v18) (V m c main_v19)
            (V m c main_v20) (V m c main_arg7) (V m c main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 9).trans (Cert.KernelIdeal.Final.final9 m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c)⟩) (run_main m ρ)

end Cert.KernelIdeal.ValueI

end
-- ==== Proof.HostK.lean ====
/-
  The arrays the kernel's region finds, as functions of @main's arguments (at the extended reals).

  Before the region @main gathers the source and target node rows of every edge (the same host operations the reference
  applies: slice the index row, wrap a negative index by the table's length, gather) and reshapes the four parameter
  vectors to one-row arrays. The gathers are named by the reference's own stages and never opened.
-/
import proofs.«140711_j4784593568415_1_alg».proof.Proof.Gen.KernelIdeal.Frame
import proofs.«140711_j4784593568415_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.HostK

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The gathered source rows are the reference's first gather of the node table and the index array. -/
theorem V_v10 (c : Dev nD) : (V m c main_v10 : S800000x64.Idx → EReal)
    = Cert.ReferenceIdeal.Read.val_main_v10 (F := Ideal) (m ((c.tc : Thread nD τ).loc main_arg0)) (m ((c.tc : Thread nD τ).loc main_arg2)) := by
  dsimp only [V, hostOps0]; after_results; rfl

set_option maxHeartbeats 4000000 in
/-- The gathered target rows are the reference's second gather. -/
theorem V_v17 (c : Dev nD) : (V m c main_v17 : S800000x64.Idx → EReal)
    = Cert.ReferenceIdeal.Read.val_main_v17 (F := Ideal) (m ((c.tc : Thread nD τ).loc main_arg0)) (m ((c.tc : Thread nD τ).loc main_arg2)) := by
  dsimp only [V, hostOps0]; after_results; rfl

/-- A parameter vector reshaped to one row. -/
theorem V_v18 (c : Dev nD) : (V m c main_v18 : S1x192.Idx → EReal)
    = shapeCast S1x192 (m ((c.tc : Thread nD τ).loc main_arg4)) shapeCasts_S192_S1x192 := by
  dsimp only [V, hostOps0]; after_results; rfl
theorem V_v19 (c : Dev nD) : (V m c main_v19 : S1x192.Idx → EReal)
    = shapeCast S1x192 (m ((c.tc : Thread nD τ).loc main_arg5)) shapeCasts_S192_S1x192 := by
  dsimp only [V, hostOps0]; after_results; rfl
theorem V_v20 (c : Dev nD) : (V m c main_v20 : S1x192.Idx → EReal)
    = shapeCast S1x192 (m ((c.tc : Thread nD τ).loc main_arg6)) shapeCasts_S192_S1x192 := by
  dsimp only [V, hostOps0]; after_results; rfl
theorem V_v21 (c : Dev nD) : (V m c main_v21 : S1x64.Idx → EReal)
    = shapeCast S1x64 (m ((c.tc : Thread nD τ).loc main_arg8)) shapeCasts_S64_S1x64 := by
  dsimp only [V, hostOps0]; after_results; rfl

end Cert.KernelIdeal.HostK

end
-- ==== Proof.RefG.lean ====
/-
  The reference's result read at one element, at the extended reals.

  At row `p` and lane `q` of its 800000 × 64 result the reference computes the edge update (Spec.lean) of row `p` of the
  two gathered node arrays and of the edge features: the host's concatenation, dot products, sums and broadcasts act
  row by row. The two gathers are left as the stages the run names: which node row an edge reads is decided by the
  index array, and nothing here looks inside.
-/
import proofs.«140711_j4784593568415_1_alg».proof.Proof.Gen.ReferenceIdeal.Read
import proofs.«140711_j4784593568415_1_alg».proof.Proof.Spec
import proofs.«140711_j4784593568415_1_alg».proof.Proof.LibRowwise
import proofs.«140711_j4784593568415_1_alg».proof.Proof.LibCat3

noncomputable section

namespace Cert.ReferenceIdeal.RefG

open Cert.ReferenceIdeal Cert.ReferenceIdeal.Gen Cert.ReferenceIdeal.Read
open Idealize.ShloMosaic Idealize.ShloMosaic.ValueIdx

/-! ## The stages, row by row

Each lemma reads one stage at row `p` from the stages before it at row `p`: the index functions the layout operations
compose are, at `(p, j)`, again `(p, ·)`, `(·, j)` or `j`; a sum's initial value is the zero word, which denotes 0. -/

section Stages

variable (x0 : (⟨S50000x64, .f32⟩ : BufTy).Contents (Elt Ideal)) (x1 : (⟨S800000x64, .f32⟩ : BufTy).Contents (Elt Ideal)) (x2 : (⟨S2x800000, .i32⟩ : BufTy).Contents (Elt Ideal))

/-- Row `p` of the concatenated array: the two gathered node rows and the edge's own features, end to end. -/
def row (p : Fin 800000) : Fin 192 → EReal :=
  Cert.Spec.cat3 (fun k => val_main_v10 (F := Ideal) x0 x2 (ix2 p k)) (fun k => val_main_v17 (F := Ideal) x0 x2 (ix2 p k))
    (fun k => x1 (ix2 p k))

/-- The concatenation at `(p, k)` is entry `k` of the three rows laid end to end. -/
theorem v18_apply (p : Fin 800000) (k : Fin 192) :
    val_main_v18 (F := Ideal) x0 x1 x2 (ix2 p k) = row x0 x1 x2 p k := by
  unfold val_main_v18 row
  generalize val_main_v10 (F := Ideal) x0 x2 = a
  generalize val_main_v17 (F := Ideal) x0 x2 = b
  exact (Cert.Lib.Cat3.concatenate3_apply a b x1 _ p k).trans rfl

variable (x3 : (⟨S192x192, .f32⟩ : BufTy).Contents (Elt Ideal)) (x4 : (⟨S192, .f32⟩ : BufTy).Contents (Elt Ideal))

/-- The first linear layer at `(p, j)`. -/
theorem v22_apply (p : Fin 800000) (j : Fin 192) :
    val_main_v22 (F := Ideal) x0 x1 x2 x3 x4 (ix2 p j)
      = Cert.Spec.lin (row x0 x1 x2 p) (fun k j => x3 (ix2 k j)) (fun j => x4 (ix1 j)) j := by
  have e1 : ∀ k : Fin 192, lidx_main_v19 (ix2 p j) k = ix2 p k := fun k =>
    funext fun a => Fin.ext (by match a with | ⟨0, _⟩ => rfl | ⟨1, _⟩ => rfl)
  have e2 : ∀ k : Fin 192, ridx_main_v19 (ix2 p j) k = ix2 k j := fun k =>
    funext fun a => Fin.ext (by match a with | ⟨0, _⟩ => rfl | ⟨1, _⟩ => rfl)
  have e3 : idx_main_v20 (idx_main_v21 (ix2 p j)) = ix1 j :=
    funext fun a => Fin.ext (by match a with | ⟨0, _⟩ => rfl)
  rw [val_main_v22_apply, val_main_v19_apply, val_main_v21_apply, val_main_v20_apply]
  simp only [e1, e2, e3, v18_apply, Ideal.addf_def]
  rfl

/-- The row's mean, as the column the program broadcasts. -/
theorem v26_apply (p : Fin 800000) (u : Fin 1) :
    val_main_v26 (F := Ideal) x0 x1 x2 x3 x4 (ix2 p u)
      = Cert.Spec.mean (fun j => val_main_v22 (F := Ideal) x0 x1 x2 x3 x4 (ix2 p j)) := by
  have e1 : ∀ k : Fin 192, idx_main_v23 (idx_main_v24 (ix2 p u)) k = ix2 p k := fun k =>
    funext fun a => Fin.ext (by match a with | ⟨0, _⟩ => rfl | ⟨1, _⟩ => rfl)
  rw [val_main_v26_apply, val_main_v24_apply, val_main_v23_apply, val_main_v25_apply, val_main_cst_3_apply, val_main_cst_apply]
  simp only [e1, Ideal.hostDivf_def, Ideal.ofBits_def, Ideal.ofBits_zero_f32, zero_add]
  rfl

/-- The row's deviations from its mean (the program computes them twice, for the variance and for the result). -/
theorem v28_apply (p : Fin 800000) (j : Fin 192) :
    val_main_v28 (F := Ideal) x0 x1 x2 x3 x4 (ix2 p j)
      = Cert.Spec.dev (fun j => val_main_v22 (F := Ideal) x0 x1 x2 x3 x4 (ix2 p j)) j := by
  have e1 : idx_main_v27 (ix2 p j) = ix2 p (⟨0, Nat.one_pos⟩ : Fin 1) :=
    funext fun a => Fin.ext (by match a with | ⟨0, _⟩ => rfl | ⟨1, _⟩ => rfl)
  rw [val_main_v28_apply, val_main_v27_apply, e1, v26_apply]
  rfl

/-- The same deviations, from the second broadcast of the mean. -/
theorem v35_apply (p : Fin 800000) (j : Fin 192) :
    val_main_v35 (F := Ideal) x0 x1 x2 x3 x4 (ix2 p j)
      = Cert.Spec.dev (fun j => val_main_v22 (F := Ideal) x0 x1 x2 x3 x4 (ix2 p j)) j := by
  have e1 : idx_main_v34 (ix2 p j) = ix2 p (⟨0, Nat.one_pos⟩ : Fin 1) :=
    funext fun a => Fin.ext (by match a with | ⟨0, _⟩ => rfl | ⟨1, _⟩ => rfl)
  rw [val_main_v35_apply, val_main_v34_apply, e1, v26_apply]
  rfl

/-- The row's variance, as the column the program broadcasts. -/
theorem v33_apply (p : Fin 800000) (u : Fin 1) :
    val_main_v33 (F := Ideal) x0 x1 x2 x3 x4 (ix2 p u)
      = Cert.Spec.var (fun j => val_main_v22 (F := Ideal) x0 x1 x2 x3 x4 (ix2 p j)) := by
  have e1 : ∀ k : Fin 192, idx_main_v30 (idx_main_v31 (ix2 p u)) k = ix2 p k := fun k =>
    funext fun a => Fin.ext (by match a with | ⟨0, _⟩ => rfl | ⟨1, _⟩ => rfl)
  rw [val_main_v33_apply, val_main_v31_apply, val_main_v30_apply, val_main_v32_apply, val_main_cst_5_apply, val_main_cst_4_apply]
  simp only [e1, val_main_v29_apply, v28_apply, Ideal.hostDivf_def, Ideal.mulf_def, Ideal.ofBits_def, Ideal.ofBits_zero_f32, zero_add]
  rfl

variable (x5 : (⟨S192, .f32⟩ : BufTy).Contents (Elt Ideal)) (x6 : (⟨S192, .f32⟩ : BufTy).Contents (Elt Ideal))

/-- The normalized, scaled, shifted and rectified row at `(p, j)`. -/
theorem v47_apply (p : Fin 800000) (j : Fin 192) :
    val_main_v47 (F := Ideal) x0 x1 x2 x3 x4 x5 x6 (ix2 p j)
      = Cert.Spec.act (Cert.Spec.lin (row x0 x1 x2 p) (fun k j => x3 (ix2 k j)) (fun j => x4 (ix1 j)))
          (fun j => x5 (ix1 j)) (fun j => x6 (ix1 j)) j := by
  have hh : (fun j => val_main_v22 (F := Ideal) x0 x1 x2 x3 x4 (ix2 p j))
      = Cert.Spec.lin (row x0 x1 x2 p) (fun k j => x3 (ix2 k j)) (fun j => x4 (ix1 j)) := funext fun j => v22_apply x0 x1 x2 x3 x4 p j
  have e1 : idx_main_v39 (ix2 p j) = ix2 p (⟨0, Nat.one_pos⟩ : Fin 1) :=
    funext fun a => Fin.ext (by match a with | ⟨0, _⟩ => rfl | ⟨1, _⟩ => rfl)
  have e2 : idx_main_v41 (idx_main_v42 (ix2 p j)) = ix1 j :=
    funext fun a => Fin.ext (by match a with | ⟨0, _⟩ => rfl)
  have e3 : idx_main_v44 (idx_main_v45 (ix2 p j)) = ix1 j :=
    funext fun a => Fin.ext (by match a with | ⟨0, _⟩ => rfl)
  rw [val_main_v47_apply, val_main_v46_apply, val_main_v43_apply, val_main_v40_apply, val_main_v39_apply, val_main_v38_apply,
    val_main_v37_apply, val_main_v36_apply, val_main_cst_6_apply, val_main_v42_apply, val_main_v41_apply, val_main_v45_apply,
    val_main_v44_apply, val_main_call0_v0_apply, val_main_call0_cst_apply, e1, e2, e3, v35_apply, v33_apply, hh]
  simp only [Ideal.addf_def, Ideal.mulf_def, Ideal.maximumf_def, Ideal.hostUnary_rsqrt_def, Ideal.ofBits_def]
  rfl

end Stages

/-! ## The result -/

/-- The reference's last stage at `(p, q)` is the edge update of row `p`. -/
theorem ref_apply (x0 : (⟨S50000x64, .f32⟩ : BufTy).Contents (Elt Ideal)) (x1 : (⟨S800000x64, .f32⟩ : BufTy).Contents (Elt Ideal))
    (x2 : (⟨S2x800000, .i32⟩ : BufTy).Contents (Elt Ideal)) (x3 : (⟨S192x192, .f32⟩ : BufTy).Contents (Elt Ideal))
    (x4 x5 x6 : (⟨S192, .f32⟩ : BufTy).Contents (Elt Ideal)) (x7 : (⟨S192x64, .f32⟩ : BufTy).Contents (Elt Ideal))
    (x8 : (⟨S64, .f32⟩ : BufTy).Contents (Elt Ideal)) (p : Fin 800000) (q : Fin 64) :
    val_main_v52 (F := Ideal) x0 x1 x2 x3 x4 x5 x6 x7 x8 (ix2 p q)
      = Cert.Spec.edgeOut
          (Cert.Spec.cat3 (fun k => val_main_v10 (F := Ideal) x0 x2 (ix2 p k)) (fun k => val_main_v17 (F := Ideal) x0 x2 (ix2 p k))
            (fun k => x1 (ix2 p k)))
          (fun k => x1 (ix2 p k))
          (fun k j => x3 (ix2 k j)) (fun j => x4 (ix1 j)) (fun j => x5 (ix1 j)) (fun j => x6 (ix1 j))
          (fun j r => x7 (ix2 j r)) (fun r => x8 (ix1 r)) q := by
  have e1 : ∀ k : Fin 192, lidx_main_v48 (ix2 p q) k = ix2 p k := fun k =>
    funext fun a => Fin.ext (by match a with | ⟨0, _⟩ => rfl | ⟨1, _⟩ => rfl)
  have e2 : ∀ k : Fin 192, ridx_main_v48 (ix2 p q) k = ix2 k q := fun k =>
    funext fun a => Fin.ext (by match a with | ⟨0, _⟩ => rfl | ⟨1, _⟩ => rfl)
  have e3 : idx_main_v49 (idx_main_v50 (ix2 p q)) = ix1 q :=
    funext fun a => Fin.ext (by match a with | ⟨0, _⟩ => rfl)
  rw [val_main_v52_apply, val_main_v51_apply, val_main_v48_apply, val_main_v50_apply, val_main_v49_apply]
  simp only [e1, e2, e3, v47_apply, Ideal.addf_def]
  rfl

end Cert.ReferenceIdeal.RefG

end
-- ==== Proof.Bridge.lean ====
/-
  The kernel's result and the reference's are one function of the arguments (at the extended reals).

  The kernel's result array is the edge update of every row of the arrays its region finds; those are the reference's
  own two gathers of the node table, the edge features, the weight matrices, and the four parameter vectors as one-row
  arrays. The reference's last stage, read at an element, is the same edge update of the same rows. So the two agree at
  every element.
-/
import proofs.«140711_j4784593568415_1_alg».proof.Proof.Final
import proofs.«140711_j4784593568415_1_alg».proof.Proof.HostK
import proofs.«140711_j4784593568415_1_alg».proof.Proof.RefG

set_option maxRecDepth 16384

noncomputable section

namespace Cert.Bridge

open Cert.KernelIdeal Cert.KernelIdeal.Gen
open Idealize.ShloMosaic Idealize.ShloMosaic.TcCoe Idealize.ShloMosaic.ValueIdx
open Idealize.SL Idealize.SL.Sem

/-- A length-`B` vector reshaped to one row reads, at `(0, j)`, the vector at `j`. -/
theorem rowCast_apply {α : Type} {B : Nat} (v : (⟨1, ![B]⟩ : Shape).Idx → α) (h : (⟨1, ![B]⟩ : Shape).ShapeCasts ⟨2, ![1, B]⟩) (j : Fin B) :
    shapeCast ⟨2, ![1, B]⟩ v h (ix2 0 j) = v (ix1 j) := by
  refine shapeCast_apply v h (ix2 0 j) (ix1 j) ?_
  rw [Shape.rowMajor_val_one, Shape.rowMajor_val_two]
  show j.val = 0 * B + j.val
  omega

variable (m : (ℓ : Loc nD τ sig) → Buf (Elt Ideal) ℓ)

/-- The kernel's result, as a function of @main's arguments, is the reference's last stage of the same arguments. -/
theorem kernel_eq_ref (c : Dev nD) :
    Cert.KernelIdeal.Final.Gof (V m c main_v10) (V m c main_v17) (V m c main_arg1) (V m c main_arg3) (V m c main_v18) (V m c main_v19) (V m c main_v20) (V m c main_arg7) (V m c main_v21)
      = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Cert.KernelIdeal.HostK.V_v10 m c, Cert.KernelIdeal.HostK.V_v17 m c, V_main_arg1 m c, V_main_arg3 m c, Cert.KernelIdeal.HostK.V_v18 m c,
    Cert.KernelIdeal.HostK.V_v19 m c, Cert.KernelIdeal.HostK.V_v20 m c, V_main_arg7 m c, Cert.KernelIdeal.HostK.V_v21 m c]
  funext i
  have ei : i = ix2 (⟨(i 0).val, (i 0).isLt⟩ : Fin 800000) (⟨(i 1).val, (i 1).isLt⟩ : Fin 64) :=
    funext fun a => Fin.ext (by match a with | ⟨0, _⟩ => rfl | ⟨1, _⟩ => rfl)
  conv_rhs => rw [ei]
  rw [Cert.ReferenceIdeal.RefG.ref_apply]
  unfold Cert.KernelIdeal.Final.Gof
  simp only [rowCast_apply]

end Cert.Bridge

end
-- ==== Proof.lean ====
/-
  The certificate: an edge-update layer of a graph network as a tiled kernel against its reference.

  Both programs gather, for each of 800000 edges, the rows of its two end nodes from a 50000 × 64 table (the same host
  operations on both sides), lay them beside the edge's own 64 features, and apply, row by row, a 192 × 192 linear layer,
  a normalization over the 192 entries (mean, mean square deviation, inverse square root, scale and shift), a rectifier, a
  192 × 64 linear layer, and add the edge's features back. The kernel does this 4096 rows at a time on a grid of 196
  points, the last of which reaches past the arrays' end and is cut to the 1280 rows inside.

  * The frames of the two kernel programs: the body's triple for any float instance, launched with the result's
    window forgotten, so that nothing is asked of an instance's matrix product (Proof/Oblig.lean and its word-level
    twin).
  * The reference's frame is its run with the result dropped.
  * The ideal pass rewrote nothing, so `preserves` is trivial.
  * At the extended reals both results are ONE function of the arguments: every entry of the kernel's result block is
    the edge update of one row (Proof/PayIdeal.lean), which makes the cut last block's rows independent of what the
    staging buffers hold past the array's end (Proof/ValueIdeal.lean) and the 196 written blocks the blocks of one
    whole-array function (Proof/Final.lean); the reference's last stage read at an element is the same edge update
    (Proof/RefG.lean); the arrays the kernel's region finds are the reference's own gathers and the reshaped parameters
    (Proof/HostK.lean, Proof/Bridge.lean). The same sums of the same products stand on both sides, so no law of the
    extended reals beyond that is used, and the precondition is never opened.
-/
import proofs.«140711_j4784593568415_1_alg».proof.Defs
import proofs.«140711_j4784593568415_1_alg».proof.Proof.Gen.Kernel
import proofs.«140711_j4784593568415_1_alg».proof.Proof.Gen.KernelIdeal
import proofs.«140711_j4784593568415_1_alg».proof.Proof.Gen.ReferenceIdeal
import proofs.«140711_j4784593568415_1_alg».proof.Proof.Gen.Pre_finite_inputs
import proofs.«140711_j4784593568415_1_alg».proof.Proof.Gen.ReferenceIdeal.Run
import proofs.«140711_j4784593568415_1_alg».proof.Proof.Gen.ReferenceIdeal.Read
import proofs.«140711_j4784593568415_1_alg».proof.Proof.KOblig
import proofs.«140711_j4784593568415_1_alg».proof.Proof.Oblig
import proofs.«140711_j4784593568415_1_alg».proof.Proof.ValueIdeal
import proofs.«140711_j4784593568415_1_alg».proof.Proof.Bridge
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Oblig.frame (F := Bits) m ρ

theorem frame_pi : Cert.frame_KernelIdeal := fun m ρ _ => Cert.KernelIdeal.Oblig.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, the kernel's result array and the reference's end at one function of
    them. -/
theorem algebraic : Cert.algebraic_KernelIdeal_ReferenceIdeal := by
  intro m ρ m' ρ' _ hagree
  refine ⟨_, Cert.KernelIdeal.ValueI.run_value m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.Bridge.kernel_eq_ref m c).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
